-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1x192x192x192 : Shape := ⟨5, ![4, 1, 192, 192, 192]⟩
abbrev S_ : Shape := ⟨0, ![]⟩
abbrev S4 : Shape := ⟨1, ![4]⟩

class Facts : Prop where
  bcast_S_S4x1x192x192x192 : S_.BroadcastsInDim S4x1x192x192x192 (![] : Fin 0 → Fin S4x1x192x192x192.rank)
  reducesTo_S4x1x192x192x192_S_d0_1_2_3_4 : S4x1x192x192x192.ReducesTo [0, 1, 2, 3, 4] S_
  h_S_ : 0 < S_.numel
  reducesTo_S4x1x192x192x192_S4_d1_2_3_4 : S4x1x192x192x192.ReducesTo [1, 2, 3, 4] S4
  reducesTo_S4_S_d0 : S4.ReducesTo [0] S_

variable [Facts]

def fn_part3 {F : FTy → Type} [FloatOps F] (main_arg2 : IVec S4x1x192x192x192 32) (main_v41 : IVec S_ 1) (main_v45 : IVec S_ 1) : IVec S_ 1 :=
  let main_v46 : IVec S_ 1 := andi main_v41 main_v45
  let main_c_24 : IVec S_ 32 := constantI S_ 32 7#32
  let main_v47 : IVec S4x1x192x192x192 32 := broadcastInDim S4x1x192x192x192 ![] bcast_S_S4x1x192x192x192 main_c_24
  let main_v48 : IVec S4x1x192x192x192 1 := cmpi .eq main_arg2 main_v47
  let main_c_25 : IVec S_ 1 := constantI S_ 1 0#1
  let main_v49 : IVec S4 1 := (fun x v => Host.reduce IntOp.ori x v reducesTo_S4x1x192x192x192_S4_d1_2_3_4 h_S_) main_v48 main_c_25
  let main_c_26 : IVec S_ 1 := constantI S_ 1 1#1
  let main_v50 : IVec S_ 1 := (fun x v => Host.reduce IntOp.andi x v reducesTo_S4_S_d0 h_S_) main_v49 main_c_26
  let main_v51 : IVec S_ 1 := andi main_v46 main_v50
  main_v51

def fn_part2 {F : FTy → Type} [FloatOps F] (main_arg2 : IVec S4x1x192x192x192 32) (main_v26 : IVec S_ 1) (main_v30 : IVec S_ 1) : IVec S_ 1 :=
  let main_v31 : IVec S_ 1 := andi main_v26 main_v30
  let main_c_15 : IVec S_ 32 := constantI S_ 32 4#32
  let main_v32 : IVec S4x1x192x192x192 32 := broadcastInDim S4x1x192x192x192 ![] bcast_S_S4x1x192x192x192 main_c_15
  let main_v33 : IVec S4x1x192x192x192 1 := cmpi .eq main_arg2 main_v32
  let main_c_16 : IVec S_ 1 := constantI S_ 1 0#1
  let main_v34 : IVec S4 1 := (fun x v => Host.reduce IntOp.ori x v reducesTo_S4x1x192x192x192_S4_d1_2_3_4 h_S_) main_v33 main_c_16
  let main_c_17 : IVec S_ 1 := constantI S_ 1 1#1
  let main_v35 : IVec S_ 1 := (fun x v => Host.reduce IntOp.andi x v reducesTo_S4_S_d0 h_S_) main_v34 main_c_17
  let main_v36 : IVec S_ 1 := andi main_v31 main_v35
  let main_c_18 : IVec S_ 32 := constantI S_ 32 5#32
  let main_v37 : IVec S4x1x192x192x192 32 := broadcastInDim S4x1x192x192x192 ![] bcast_S_S4x1x192x192x192 main_c_18
  let main_v38 : IVec S4x1x192x192x192 1 := cmpi .eq main_arg2 main_v37
  let main_c_19 : IVec S_ 1 := constantI S_ 1 0#1
  let main_v39 : IVec S4 1 := (fun x v => Host.reduce IntOp.ori x v reducesTo_S4x1x192x192x192_S4_d1_2_3_4 h_S_) main_v38 main_c_19
  let main_c_20 : IVec S_ 1 := constantI S_ 1 1#1
  let main_v40 : IVec S_ 1 := (fun x v => Host.reduce IntOp.andi x v reducesTo_S4_S_d0 h_S_) main_v39 main_c_20
  let main_v41 : IVec S_ 1 := andi main_v36 main_v40
  let main_c_21 : IVec S_ 32 := constantI S_ 32 6#32
  let main_v42 : IVec S4x1x192x192x192 32 := broadcastInDim S4x1x192x192x192 ![] bcast_S_S4x1x192x192x192 main_c_21
  let main_v43 : IVec S4x1x192x192x192 1 := cmpi .eq main_arg2 main_v42
  let main_c_22 : IVec S_ 1 := constantI S_ 1 0#1
  let main_v44 : IVec S4 1 := (fun x v => Host.reduce IntOp.ori x v reducesTo_S4x1x192x192x192_S4_d1_2_3_4 h_S_) main_v43 main_c_22
  let main_c_23 : IVec S_ 1 := constantI S_ 1 1#1
  let main_v45 : IVec S_ 1 := (fun x v => Host.reduce IntOp.andi x v reducesTo_S4_S_d0 h_S_) main_v44 main_c_23
  fn_part3 (F := F) main_arg2 main_v41 main_v45

def fn_part1 {F : FTy → Type} [FloatOps F] (main_arg2 : IVec S4x1x192x192x192 32) (main_v12 : IVec S_ 1) (main_v15 : IVec S_ 1) : IVec S_ 1 :=
  let main_v16 : IVec S_ 1 := andi main_v12 main_v15
  let main_c_6 : IVec S_ 32 := constantI S_ 32 1#32
  let main_v17 : IVec S4x1x192x192x192 32 := broadcastInDim S4x1x192x192x192 ![] bcast_S_S4x1x192x192x192 main_c_6
  let main_v18 : IVec S4x1x192x192x192 1 := cmpi .eq main_arg2 main_v17
  let main_c_7 : IVec S_ 1 := constantI S_ 1 0#1
  let main_v19 : IVec S4 1 := (fun x v => Host.reduce IntOp.ori x v reducesTo_S4x1x192x192x192_S4_d1_2_3_4 h_S_) main_v18 main_c_7
  let main_c_8 : IVec S_ 1 := constantI S_ 1 1#1
  let main_v20 : IVec S_ 1 := (fun x v => Host.reduce IntOp.andi x v reducesTo_S4_S_d0 h_S_) main_v19 main_c_8
  let main_v21 : IVec S_ 1 := andi main_v16 main_v20
  let main_c_9 : IVec S_ 32 := constantI S_ 32 2#32
  let main_v22 : IVec S4x1x192x192x192 32 := broadcastInDim S4x1x192x192x192 ![] bcast_S_S4x1x192x192x192 main_c_9
  let main_v23 : IVec S4x1x192x192x192 1 := cmpi .eq main_arg2 main_v22
  let main_c_10 : IVec S_ 1 := constantI S_ 1 0#1
  let main_v24 : IVec S4 1 := (fun x v => Host.reduce IntOp.ori x v reducesTo_S4x1x192x192x192_S4_d1_2_3_4 h_S_) main_v23 main_c_10
  let main_c_11 : IVec S_ 1 := constantI S_ 1 1#1
  let main_v25 : IVec S_ 1 := (fun x v => Host.reduce IntOp.andi x v reducesTo_S4_S_d0 h_S_) main_v24 main_c_11
  let main_v26 : IVec S_ 1 := andi main_v21 main_v25
  let main_c_12 : IVec S_ 32 := constantI S_ 32 3#32
  let main_v27 : IVec S4x1x192x192x192 32 := broadcastInDim S4x1x192x192x192 ![] bcast_S_S4x1x192x192x192 main_c_12
  let main_v28 : IVec S4x1x192x192x192 1 := cmpi .eq main_arg2 main_v27
  let main_c_13 : IVec S_ 1 := constantI S_ 1 0#1
  let main_v29 : IVec S4 1 := (fun x v => Host.reduce IntOp.ori x v reducesTo_S4x1x192x192x192_S4_d1_2_3_4 h_S_) main_v28 main_c_13
  let main_c_14 : IVec S_ 1 := constantI S_ 1 1#1
  let main_v30 : IVec S_ 1 := (fun x v => Host.reduce IntOp.andi x v reducesTo_S4_S_d0 h_S_) main_v29 main_c_14
  fn_part2 (F := F) main_arg2 main_v26 main_v30

def fn {F : FTy → Type} [FloatOps F] (main_arg0 : FVec F S4x1x192x192x192 .f32) (main_arg1 : FVec F S4x1x192x192x192 .f32) (main_arg2 : IVec S4x1x192x192x192 32) : IVec S_ 1 :=
  let main_v0 : FVec F S4x1x192x192x192 .f32 := Host.absf main_arg0
  let main_cst : FVec F S_ .f32 := constant S_ .f32 0x7F800000#32
  let main_v1 : FVec F S4x1x192x192x192 .f32 := broadcastInDim S4x1x192x192x192 ![] bcast_S_S4x1x192x192x192 main_cst
  let main_v2 : IVec S4x1x192x192x192 1 := cmpf .olt main_v0 main_v1
  let main_c : IVec S_ 1 := constantI S_ 1 1#1
  let main_v3 : IVec S_ 1 := (fun x v => Host.reduce IntOp.andi x v reducesTo_S4x1x192x192x192_S_d0_1_2_3_4 h_S_) main_v2 main_c
  let main_v4 : FVec F S4x1x192x192x192 .f32 := Host.absf main_arg1
  let main_cst_0 : FVec F S_ .f32 := constant S_ .f32 0x7F800000#32
  let main_v5 : FVec F S4x1x192x192x192 .f32 := broadcastInDim S4x1x192x192x192 ![] bcast_S_S4x1x192x192x192 main_cst_0
  let main_v6 : IVec S4x1x192x192x192 1 := cmpf .olt main_v4 main_v5
  let main_c_1 : IVec S_ 1 := constantI S_ 1 1#1
  let main_v7 : IVec S_ 1 := (fun x v => Host.reduce IntOp.andi x v reducesTo_S4x1x192x192x192_S_d0_1_2_3_4 h_S_) main_v6 main_c_1
  let main_v8 : IVec S_ 1 := andi main_v3 main_v7
  let main_c_2 : IVec S_ 32 := constantI S_ 32 0#32
  let main_v9 : IVec S4x1x192x192x192 32 := broadcastInDim S4x1x192x192x192 ![] bcast_S_S4x1x192x192x192 main_c_2
  let main_v10 : IVec S4x1x192x192x192 1 := cmpi .sge main_arg2 main_v9
  let main_c_3 : IVec S_ 1 := constantI S_ 1 1#1
  let main_v11 : IVec S_ 1 := (fun x v => Host.reduce IntOp.andi x v reducesTo_S4x1x192x192x192_S_d0_1_2_3_4 h_S_) main_v10 main_c_3
  let main_v12 : IVec S_ 1 := andi main_v8 main_v11
  let main_c_4 : IVec S_ 32 := constantI S_ 32 8#32
  let main_v13 : IVec S4x1x192x192x192 32 := broadcastInDim S4x1x192x192x192 ![] bcast_S_S4x1x192x192x192 main_c_4
  let main_v14 : IVec S4x1x192x192x192 1 := cmpi .slt main_arg2 main_v13
  let main_c_5 : IVec S_ 1 := constantI S_ 1 1#1
  let main_v15 : IVec S_ 1 := (fun x v => Host.reduce IntOp.andi x v reducesTo_S4x1x192x192x192_S_d0_1_2_3_4 h_S_) main_v14 main_c_5
  fn_part1 (F := F) main_arg2 main_v12 main_v15
-- ==== Kernel.lean ====
abbrev S4x1x192x192x192 : Shape := ⟨5, ![4, 1, 192, 192, 192]⟩
abbrev S4x55296x128 : Shape := ⟨3, ![4, 55296, 128]⟩
abbrev S2x4x128 : Shape := ⟨3, ![2, 4, 128]⟩
abbrev S4x3456x128 : Shape := ⟨3, ![4, 3456, 128]⟩
abbrev S1x4x128 : Shape := ⟨3, ![1, 4, 128]⟩
abbrev S4x3456 : Shape := ⟨2, ![4, 3456]⟩
abbrev S4 : Shape := ⟨1, ![4]⟩
abbrev S4x1 : Shape := ⟨2, ![4, 1]⟩
abbrev S4x7 : Shape := ⟨2, ![4, 7]⟩
abbrev S4x121 : Shape := ⟨2, ![4, 121]⟩
abbrev S4x128 : Shape := ⟨2, ![4, 128]⟩
abbrev S_ : Shape := ⟨0, ![]⟩

abbrev nBuf : Space → Nat
  | .hbm => 25
  | .vmem => 10
  | .smem => 0
  | _ => 0

abbrev bufTy : (tb : Table) → Fin (tcTables nBuf tb) → BufTy
  | .hbm, ⟨0, _⟩ => ⟨S4x1x192x192x192, .f32⟩
  | .hbm, ⟨1, _⟩ => ⟨S4x1x192x192x192, .f32⟩
  | .hbm, ⟨2, _⟩ => ⟨S4x1x192x192x192, .i32⟩
  | .hbm, ⟨3, _⟩ => ⟨S4x55296x128, .f32⟩
  | .hbm, ⟨4, _⟩ => ⟨S4x55296x128, .f32⟩
  | .hbm, ⟨5, _⟩ => ⟨S4x55296x128, .i32⟩
  | .hbm, ⟨6, _⟩ => ⟨S2x4x128, .f32⟩
  | .hbm, ⟨7, _⟩ => ⟨S2x4x128, .f32⟩
  | .hbm, ⟨8, _⟩ => ⟨S_, .f32⟩
  | .hbm, ⟨9, _⟩ => ⟨S4x128, .f32⟩
  | .hbm, ⟨10, _⟩ => ⟨S4x7, .f32⟩
  | .hbm, ⟨11, _⟩ => ⟨S_, .f32⟩
  | .hbm, ⟨12, _⟩ => ⟨S4x128, .f32⟩
  | .hbm, ⟨13, _⟩ => ⟨S4x7, .f32⟩
  | .hbm, ⟨14, _⟩ => ⟨S_, .f32⟩
  | .hbm, ⟨15, _⟩ => ⟨S4x7, .f32⟩
  | .hbm, ⟨16, _⟩ => ⟨S4x7, .i1⟩
  | .hbm, ⟨17, _⟩ => ⟨S4x7, .f32⟩
  | .hbm, ⟨18, _⟩ => ⟨S_, .f32⟩
  | .hbm, ⟨19, _⟩ => ⟨S4x7, .f32⟩
  | .hbm, ⟨20, _⟩ => ⟨S4x7, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S4x3456x128, .f32⟩
  | .local _ .vmem, ⟨1, _⟩ => ⟨S4x3456x128, .f32⟩
  | .local _ .vmem, ⟨2, _⟩ => ⟨S4x3456x128, .f32⟩
  | .local _ .vmem, ⟨3, _⟩ => ⟨S4x3456x128, .f32⟩
  | .local _ .vmem, ⟨4, _⟩ => ⟨S4x3456x128, .i32⟩
  | .local _ .vmem, ⟨5, _⟩ => ⟨S4x3456x128, .i32⟩
  | .local _ .vmem, ⟨6, _⟩ => ⟨S1x4x128, .f32⟩
  | .local _ .vmem, ⟨7, _⟩ => ⟨S1x4x128, .f32⟩
  | .local _ .vmem, ⟨8, _⟩ => ⟨S1x4x128, .f32⟩
  | .local _ .vmem, ⟨9, _⟩ => ⟨S1x4x128, .f32⟩
  | _, _ => ⟨S4x1x192x192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_call0_v0 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x3456x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x3456x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x3456x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4x1x192x192x192_S4x55296x128 : S4x1x192x192x192.ShapeCasts S4x55296x128
  inb_S1x4x128_S1x4x128_0_0_0 : ∀ a, (![0, 0, 0] : Fin 3 → Nat) a + S1x4x128.size a ≤ S1x4x128.size a
  h_S1x4x128 : 0 < S1x4x128.numel
  inb_S4x3456x128_S4x3456x128_0_0_0 : ∀ a, (![0, 0, 0] : Fin 3 → Nat) a + S4x3456x128.size a ≤ S4x3456x128.size a
  h_S4x3456x128 : 0 < S4x3456x128.numel
  shapeCasts_S4x3456x128_S4x3456x128 : S4x3456x128.ShapeCasts S4x3456x128
  natLt_1_32 : 1 < 32
  reduces_S4x3456x128_S4x3456 : S4x3456x128.Reduces [2] S4x3456
  reduces_S4x3456_S4 : S4x3456.Reduces [1] S4
  shapeCasts_S4_S4x1 : S4.ShapeCasts S4x1
  concatenates_S4x1_S4x1_S4x1_S4x1_S4x1_S4x1_S4x1_S4x7_d1 : Shape.Concatenates [S4x1, S4x1, S4x1, S4x1, S4x1, S4x1, S4x1] S4x7 1
  concatenates_S4x7_S4x121_S4x128_d1 : Shape.Concatenates [S4x7, S4x121] S4x128 1
  shapeCasts_S1x4x128_S1x4x128 : S1x4x128.ShapeCasts S1x4x128
  shapeCasts_S4x128_S1x4x128 : S4x128.ShapeCasts S1x4x128
  reducesTo_S2x4x128_S4x128_d0 : S2x4x128.ReducesTo [0] S4x128
  h_S_ : 0 < S_.numel
  slices_S4x128_S4x7_0_0 : S4x128.Slices ![0, 0] S4x7
  bcast_S_S4x7 : S_.BroadcastsInDim S4x7 (![] : Fin 0 → Fin S4x7.rank)
  reducesTo_S4x7_S_d0_1 : S4x7.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3456x128.size a ≤ S4x55296x128.size a
  hwx0_0 : ∀ i : grid0.Coords, EltTy.bits .f32 = 32 ∨ (Rect.block (s := S4x55296x128) S4x3456x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3456x128.size a ≤ S4x55296x128.size a
  hwx0_1 : ∀ i : grid0.Coords, EltTy.bits .f32 = 32 ∨ (Rect.block (s := S4x55296x128) S4x3456x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x3456x128.size a ≤ S4x55296x128.size a
  hwx0_2 : ∀ i : grid0.Coords, EltTy.bits .i32 = 32 ∨ (Rect.block (s := S4x55296x128) S4x3456x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x128.size a ≤ S2x4x128.size a
  hwx0_3 : ∀ i : grid0.Coords, EltTy.bits .f32 = 32 ∨ (Rect.block (s := S2x4x128) S1x4x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4x128.size a ≤ S2x4x128.size a
  hwx0_4 : ∀ i : grid0.Coords, EltTy.bits .f32 = 32 ∨ (Rect.block (s := S2x4x128) S1x4x128.size (cc0_transform_4 i) (hinb0_4 i)).WholeWords (EltTy.packing .f32)

variable [Facts₀]

abbrev win0_0 : Pipeline.Window sig grid0 :=
  Pipeline.Window.ofSpec (Memref.whole main_v0) S4x3456x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x3456x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x3456x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x4x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x4x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x1x192x192x192 : Shape := ⟨5, ![4, 1, 192, 192, 192]⟩
abbrev S4x7077888 : Shape := ⟨2, ![4, 7077888]⟩
abbrev S4 : Shape := ⟨1, ![4]⟩
abbrev S4x1 : Shape := ⟨2, ![4, 1]⟩
abbrev S_ : Shape := ⟨0, ![]⟩
abbrev S28311552 : Shape := ⟨1, ![28311552]⟩
abbrev S32 : Shape := ⟨1, ![32]⟩
abbrev S28311552x1 : Shape := ⟨2, ![28311552, 1]⟩
abbrev S4x8 : Shape := ⟨2, ![4, 8]⟩
abbrev S4x7 : Shape := ⟨2, ![4, 7]⟩

abbrev nBuf : Space → Nat
  | .hbm => 36
  | .vmem => 0
  | .smem => 0
  | _ => 0

abbrev bufTy : (tb : Table) → Fin (tcTables nBuf tb) → BufTy
  | .hbm, ⟨0, _⟩ => ⟨S4x1x192x192x192, .f32⟩
  | .hbm, ⟨1, _⟩ => ⟨S4x1x192x192x192, .f32⟩
  | .hbm, ⟨2, _⟩ => ⟨S4x1x192x192x192, .i32⟩
  | .hbm, ⟨3, _⟩ => ⟨S4x1x192x192x192, .f32⟩
  | .hbm, ⟨4, _⟩ => ⟨S4x1x192x192x192, .f32⟩
  | .hbm, ⟨5, _⟩ => ⟨S4x7077888, .f32⟩
  | .hbm, ⟨6, _⟩ => ⟨S4x7077888, .i32⟩
  | .hbm, ⟨7, _⟩ => ⟨S4, .i32⟩
  | .hbm, ⟨8, _⟩ => ⟨S4x1, .i32⟩
  | .hbm, ⟨9, _⟩ => ⟨S_, .i32⟩
  | .hbm, ⟨10, _⟩ => ⟨S4x1, .i32⟩
  | .hbm, ⟨11, _⟩ => ⟨S4x1, .i32⟩
  | .hbm, ⟨12, _⟩ => ⟨S4x7077888, .i32⟩
  | .hbm, ⟨13, _⟩ => ⟨S4x7077888, .i32⟩
  | .hbm, ⟨14, _⟩ => ⟨S28311552, .i32⟩
  | .hbm, ⟨15, _⟩ => ⟨S28311552, .f32⟩
  | .hbm, ⟨16, _⟩ => ⟨S_, .f32⟩
  | .hbm, ⟨17, _⟩ => ⟨S32, .f32⟩
  | .hbm, ⟨18, _⟩ => ⟨S28311552x1, .i32⟩
  | .hbm, ⟨19, _⟩ => ⟨S32, .f32⟩
  | .hbm, ⟨20, _⟩ => ⟨S_, .f32⟩
  | .hbm, ⟨21, _⟩ => ⟨S4x7077888, .f32⟩
  | .hbm, ⟨22, _⟩ => ⟨S28311552, .f32⟩
  | .hbm, ⟨23, _⟩ => ⟨S_, .f32⟩
  | .hbm, ⟨24, _⟩ => ⟨S32, .f32⟩
  | .hbm, ⟨25, _⟩ => ⟨S28311552x1, .i32⟩
  | .hbm, ⟨26, _⟩ => ⟨S32, .f32⟩
  | .hbm, ⟨27, _⟩ => ⟨S4x8, .f32⟩
  | .hbm, ⟨28, _⟩ => ⟨S4x8, .f32⟩
  | .hbm, ⟨29, _⟩ => ⟨S4x7, .f32⟩
  | .hbm, ⟨30, _⟩ => ⟨S4x7, .f32⟩
  | .hbm, ⟨31, _⟩ => ⟨S4x7, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S4x1x192x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  shapeCasts_S4x1x192x192x192_S4x7077888 : S4x1x192x192x192.ShapeCasts S4x7077888
  bcast_S4_S4x1_0 : S4.BroadcastsInDim S4x1 (![0] : Fin 1 → Fin S4x1.rank)
  bcast_S_S4x1 : S_.BroadcastsInDim S4x1 (![] : Fin 0 → Fin S4x1.rank)
  bcast_S4x1_S4x7077888_0_1 : S4x1.BroadcastsInDim S4x7077888 (![0, 1] : Fin 2 → Fin S4x7077888.rank)
  shapeCasts_S4x7077888_S28311552 : S4x7077888.ShapeCasts S28311552
  bcast_S_S32 : S_.BroadcastsInDim S32 (![] : Fin 0 → Fin S32.rank)
  bcast_S28311552_S28311552x1_0 : S28311552.BroadcastsInDim S28311552x1 (![0] : Fin 1 → Fin S28311552x1.rank)
  bcast_S_S4x7077888 : S_.BroadcastsInDim S4x7077888 (![] : Fin 0 → Fin S4x7077888.rank)
  shapeCasts_S32_S4x8 : S32.ShapeCasts S4x8
  slices_S4x8_S4x7_0_1 : S4x8.Slices ![0, 1] S4x7
  reducesTo_S4x7_S_d0_1 : S4x7.ReducesTo [0, 1] S_
  h_S_ : 0 < S_.numel
  scatter_S32_S28311552x1_S28311552_n_0_0_1_wf : ScatterDims.WF S32 S28311552x1 S28311552 [] [0] [0] 1

variable [Facts₀]

def scatter_S32_S28311552x1_S28311552_n_0_0_1 : ScatterDims S32 S28311552x1 S28311552 where
  updateWindowDims := []
  insertedWindowDims := [0]
  scatterDimsToOperandDims := [0]
  indexVectorDim := 1
  wf := scatter_S32_S28311552x1_S28311552_n_0_0_1_wf

class Facts : Prop extends Facts₀ where

variable [Facts]
-- ==== Proof.Spec.lean ====
/-
  The mathematics both programs compute, stated once over the rank-5 argument arrays.

  For a batch entry `b` and a foreground label `a = j + 1` (`j < 7`) let `H b a` be the voxels of entry `b`
  whose mask word is `a`.  The masked loss is

      (1/4) · ∑_{b < 4} ∑_{j < 7}  ( ∑_{v ∈ H b (j+1)} (x v − t v)² ) / |H b (j+1)|

  on the extended reals.  `segSum` is the inner numerator, `segCnt` the inner denominator (a natural number
  as an extended real), `meanOfMeans` the outer sum and the division by 4 written with the host operations
  both programs end in.  The quotient by a count of zero is the junk value of the extended reals' division,
  which is why the statement asks that every foreground label occurs in every batch entry: then every
  count is a positive real, and a guard that replaces the quotient by zero where the count is not positive
  never fires (`guarded_eq`).
-/
import Idealize.ShloMosaic.PureOps.Ideal
import Idealize.ShloMosaic.PureOps.Contract
import Idealize.ShloMosaic.Lib.ValueIdx

noncomputable section

namespace Cert.MaskedMean

open Idealize.ShloMosaic

/-- The argument arrays' shape: batch, channel, depth, height, width. -/
abbrev V5 : Shape := ⟨5, ![4, 1, 192, 192, 192]⟩
/-- (batch entry, foreground label − 1). -/
abbrev P47 : Shape := ⟨2, ![4, 7]⟩
/-- A scalar. -/
abbrev S0 : Shape := ⟨0, ![]⟩

/-- The squared difference at a voxel. -/
def sq (x t : V5.Idx → EReal) (v : V5.Idx) : EReal := (x v - t v) * (x v - t v)

/-- Voxel `v` lies in batch entry `p 0` and carries the label `p 1 + 1`. -/
def Hit (mk : V5.Idx → BitVec 32) (p : P47.Idx) (v : V5.Idx) : Prop :=
  (v 0).val = (p 0).val ∧ mk v = BitVec.ofNat 32 ((p 1).val + 1)

instance (mk : V5.Idx → BitVec 32) (p : P47.Idx) : DecidablePred (Hit mk p) := fun _ => by
  unfold Hit; infer_instance

/-- The sum of the squared differences over the voxels of one (batch entry, label). -/
def segSum (x t : V5.Idx → EReal) (mk : V5.Idx → BitVec 32) (p : P47.Idx) : EReal :=
  ∑ v : V5.Idx, if Hit mk p v then sq x t v else 0

/-- The number of voxels of one (batch entry, label), as an extended real. -/
def segCnt (mk : V5.Idx → BitVec 32) (p : P47.Idx) : EReal :=
  ∑ v : V5.Idx, if Hit mk p v then (1 : EReal) else 0

/-- Adding one to itself `n` times on the extended reals gives the real number `n`. -/
theorem nsmul_one (n : ℕ) : n • (1 : EReal) = ((n : ℝ) : EReal) := by
  induction n with
  | zero => simp
  | succ k ih => rw [succ_nsmul, ih, Nat.cast_succ, EReal.coe_add, EReal.coe_one]

/-- The count is the cardinality of the hit set. -/
theorem segCnt_eq_card (mk : V5.Idx → BitVec 32) (p : P47.Idx) :
    segCnt mk p = (((Finset.univ.filter (Hit mk p)).card : ℝ) : EReal) := by
  unfold segCnt
  rw [← Finset.sum_filter, Finset.sum_const, nsmul_one]

/-- Where a label occurs its count is positive. -/
theorem segCnt_pos (mk : V5.Idx → BitVec 32) (p : P47.Idx) (h : ∃ v, Hit mk p v) : 0 < segCnt mk p := by
  rw [segCnt_eq_card]
  obtain ⟨v, hv⟩ := h
  have : 0 < (Finset.univ.filter (Hit mk p)).card :=
    Finset.card_pos.mpr ⟨v, Finset.mem_filter.mpr ⟨Finset.mem_univ _, hv⟩⟩
  exact_mod_cast this

/-- The sum over the 4 × 7 table divided by 4, in the host operations both programs end with. -/
def meanOfMeans (q : P47.Idx → EReal) : S0.Idx → EReal :=
  Host.divf (F := Ideal) (φ := .f32)
    (Host.reduceAdd (F := Ideal) (φ := .f32) (axes := [0, 1]) (t := S0) (u := S0) q (constant (F := Ideal) S0 .f32 0x00000000#32))
    (constant (F := Ideal) S0 .f32 0x40800000#32)

/-- The per-label mean. -/
def means (x t : V5.Idx → EReal) (mk : V5.Idx → BitVec 32) : P47.Idx → EReal :=
  fun p => Ideal.div (segSum x t mk p) (segCnt mk p)

/-- The per-label mean with the quotient replaced by zero where the count is not positive. -/
def guardedMeans (x t : V5.Idx → EReal) (mk : V5.Idx → BitVec 32) : P47.Idx → EReal :=
  fun p => if 0 < segCnt mk p then Ideal.div (segSum x t mk p) (segCnt mk p) else 0

/-- The masked loss. -/
def loss (x t : V5.Idx → EReal) (mk : V5.Idx → BitVec 32) : S0.Idx → EReal := meanOfMeans (means x t mk)

/-- The masked loss with the guarded quotient. -/
def guardedLoss (x t : V5.Idx → EReal) (mk : V5.Idx → BitVec 32) : S0.Idx → EReal := meanOfMeans (guardedMeans x t mk)

/-- Where every foreground label occurs in every batch entry the guard never fires. -/
theorem guarded_eq (x t : V5.Idx → EReal) (mk : V5.Idx → BitVec 32) (h : ∀ p : P47.Idx, ∃ v, Hit mk p v) :
    guardedLoss x t mk = loss x t mk := by
  unfold guardedLoss loss
  congr 1
  funext p
  unfold guardedMeans means
  rw [if_pos (segCnt_pos mk p (h p))]

end Cert.MaskedMean

end
-- ==== Proof.Blocks.lean ====
/-
  The kernel's arithmetic, stated over plain arrays.

  The kernel sees each argument reshaped to 4 × 55296 × 128 and walks it in 16 row blocks of 3456 rows: core
  `c < 2` takes the blocks `8c … 8c + 7`, one per grid step.  A step adds to its core's accumulator block, at
  (batch entry `b`, lane `l`), the block's masked sum for the label `l + 1` when `l < 7` and zero on the other
  lanes (`stepSum`, `stepCnt`); a core's accumulator after its eight steps is the sum of the eight
  (`coreSums`, `coreCnts`); the host adds the two cores' accumulators onto zero and keeps the lanes `0 … 6`
  (`laneTable`).
-/
import proofs.«420671_j68152541053394_4_alg».proof.Proof.Spec

noncomputable section

namespace Cert.MaskedMean

open Idealize.ShloMosaic Idealize.ShloMosaic.ValueIdx

/-- An argument as the kernel sees it: batch entry, row, lane. -/
abbrev A3 : Shape := ⟨3, ![4, 55296, 128]⟩
/-- One row block of it. -/
abbrev B3 : Shape := ⟨3, ![4, 3456, 128]⟩
/-- One core's accumulator block. -/
abbrev O3 : Shape := ⟨3, ![1, 4, 128]⟩
/-- Both cores' accumulators. -/
abbrev R3 : Shape := ⟨3, ![2, 4, 128]⟩

/-- The label test `w = a` as the extended real 1 or 0. -/
def ind (w : BitVec 32) (a : ℕ) : EReal := if w = BitVec.ofNat 32 a then 1 else 0

/-- Row block `g` of an array: its rows `3456 g … 3456 g + 3455`. -/
def blockOf {α : Type} (X : A3.Idx → α) (g : Fin 16) : B3.Idx → α :=
  fun y => X (ix3 (n0 := 4) (n1 := 55296) (n2 := 128) ⟨(y 0).val, (y 0).isLt⟩
    ⟨g.val * 3456 + (y 1).val, by have h1 : (y 1).val < 3456 := (y 1).isLt; have h2 := g.isLt; omega⟩ ⟨(y 2).val, (y 2).isLt⟩)

/-- What one grid step adds to the sums accumulator: on lane `l < 7` of batch entry `b` the block's sum of
    squared differences times the test for the label `l + 1`; zero on the other lanes. -/
def stepSum (xb tb : B3.Idx → EReal) (mb : B3.Idx → BitVec 32) (o : O3.Idx) : EReal :=
  if (o 2).val < 7 then
    ∑ r : Fin 3456, ∑ l : Fin 128,
      ((xb (ix3 (n0 := 4) ⟨(o 1).val, (o 1).isLt⟩ r l) - tb (ix3 (n0 := 4) ⟨(o 1).val, (o 1).isLt⟩ r l))
        * (xb (ix3 (n0 := 4) ⟨(o 1).val, (o 1).isLt⟩ r l) - tb (ix3 (n0 := 4) ⟨(o 1).val, (o 1).isLt⟩ r l)))
        * ind (mb (ix3 (n0 := 4) ⟨(o 1).val, (o 1).isLt⟩ r l)) ((o 2).val + 1)
  else 0

/-- What one grid step adds to the counts accumulator. -/
def stepCnt (mb : B3.Idx → BitVec 32) (o : O3.Idx) : EReal :=
  if (o 2).val < 7 then
    ∑ r : Fin 3456, ∑ l : Fin 128, ind (mb (ix3 (n0 := 4) ⟨(o 1).val, (o 1).isLt⟩ r l)) ((o 2).val + 1)
  else 0

/-- The block core `c` handles at its step `n`. -/
def blockIx (c : Fin 2) (n : Fin 8) : Fin 16 := ⟨c.val * 8 + n.val, by have := c.isLt; have := n.isLt; omega⟩

/-- Core `i 0`'s sums accumulator after its eight steps, at (batch entry `i 1`, lane `i 2`). -/
def coreSums (X T : A3.Idx → EReal) (M : A3.Idx → BitVec 32) (i : R3.Idx) : EReal :=
  ∑ n : Fin 8, stepSum (blockOf X (blockIx ⟨(i 0).val, (i 0).isLt⟩ n)) (blockOf T (blockIx ⟨(i 0).val, (i 0).isLt⟩ n))
    (blockOf M (blockIx ⟨(i 0).val, (i 0).isLt⟩ n)) (ix3 (n0 := 1) (n1 := 4) (n2 := 128) 0 ⟨(i 1).val, (i 1).isLt⟩ ⟨(i 2).val, (i 2).isLt⟩)

/-- Core `i 0`'s counts accumulator after its eight steps. -/
def coreCnts (M : A3.Idx → BitVec 32) (i : R3.Idx) : EReal :=
  ∑ n : Fin 8, stepCnt (blockOf M (blockIx ⟨(i 0).val, (i 0).isLt⟩ n))
    (ix3 (n0 := 1) (n1 := 4) (n2 := 128) 0 ⟨(i 1).val, (i 1).isLt⟩ ⟨(i 2).val, (i 2).isLt⟩)

/-- The two cores' accumulators added onto zero, lanes `0 … 6` kept: the 4 × 7 table the host reads. -/
def laneTable (A : R3.Idx → EReal) (p : P47.Idx) : EReal :=
  0 + (A (ix3 (n0 := 2) (n1 := 4) (n2 := 128) 0 ⟨(p 0).val, (p 0).isLt⟩ ⟨(p 1).val, by have : (p 1).val < 7 := (p 1).isLt; omega⟩)
     + A (ix3 (n0 := 2) (n1 := 4) (n2 := 128) 1 ⟨(p 0).val, (p 0).isLt⟩ ⟨(p 1).val, by have : (p 1).val < 7 := (p 1).isLt; omega⟩))

end Cert.MaskedMean

end
-- ==== Proof.KerStep.lean ====
/-
  What one grid step leaves in the two accumulator blocks, at the ideal instance.

  A step adds to each accumulator a 1 × 4 × 128 increment.  At (batch entry b, lane l) with l < 7 the sums'
  increment is the sum over the block's 3456 × 128 voxels of entry b of (x − t)² times the test "mask word = l + 1"
  read as 1 or 0, the counts' increment the sum of that test alone; on the lanes from the seventh on both are
  zero.  The kernel builds the increment from seven vectors of four (one per label, each a lane sum followed by a
  row sum), joins them as columns, fills with zeros to 128 lanes and adds a leading axis.  Over the extended reals
  a lane sum followed by a row sum is the plain double sum, and the converted test bit is 1 or 0, so each column
  is the masked sum of its label and the lane picks the column of the label l + 1.
-/
import proofs.«420671_j68152541053394_4_alg».proof.Proof.Gen.KernelIdeal.Frame
import proofs.«420671_j68152541053394_4_alg».proof.Proof.Blocks
import Idealize.ShloMosaic.Lib.Pipeline.Value
import Idealize.ShloMosaic.Lib.ValueIdx
import Idealize.ShloMosaic.PureOps.Ideal.Laws
import Idealize.ShloMosaic.Lib.Tactic

noncomputable section

namespace Cert.MaskedMean.Step

open Idealize.ShloMosaic Idealize.ShloMosaic.TcCoe Idealize.SL.Sem
open Idealize.ShloMosaic.ValueIdx
open Cert.KernelIdeal Cert.KernelIdeal.Gen Cert.MaskedMean

/-! ## What each case's stores leave, at any float instance

A later step stores each accumulator block once, over the block it loaded; a first step stores the zero block,
loads it back, and stores the update over it.  Either way the block ends as the update's payload. -/

section Pieces

variable {F : FTy → Type} [FloatOps F]

/-- The zero offsets of a whole-block access, however spelt. -/
theorem hz3 : (![0, 0, 0] : Fin 3 → Nat) = fun _ => 0 := funext fun a => by fin_cases a <;> rfl

/-- A later step's sums block: the one covering store's payload over the block loaded before. -/
theorem pieceB3 (c : Dev nD) (i : grid0.Coords) (arg2 : Memref sig .tc .vmem S4x3456x128 .f32) (harg2 : arg2.IsWhole) (arg3 : Memref sig .tc .vmem S4x3456x128 .f32) (harg3 : arg3.IsWhole) (arg4 : Memref sig .tc .vmem S4x3456x128 .i32) (harg4 : arg4.IsWhole) (arg5 : Memref sig .tc .vmem S1x4x128 .f32) (harg5 : arg5.IsWhole) (arg6 : Memref sig .tc .vmem S1x4x128 .f32) (harg6 : arg6.IsWhole) (hc0 : ¬cond0_0 i)
    (x0 x1 : Vec F S4x3456x128 .f32) (x2 : Vec F S4x3456x128 .i32) (xo3 xo4 : Vec F S1x4x128 .f32) :
    out0_B_3 (F := F) c i arg2 harg2 arg3 harg3 arg4 harg4 arg5 harg5 arg6 harg6 hc0 x0 x1 x2 xo3 xo4
      = k0_pay2 (k0_pay9 x0 x1 x2) (k0_pay12 x0 x1 x2) (k0_pay16 (k0_pay15 x0 x1 x2)) (k0_pay19 (k0_pay6 x2) (k0_pay7 x0 x1))
          (k0_pay22 (k0_pay6 x2) (k0_pay7 x0 x1)) (k0_pay25 (k0_pay6 x2) (k0_pay7 x0 x1)) (k0_pay28 (k0_pay6 x2) (k0_pay7 x0 x1)) xo3 := by
  unfold out0_B_3
  rw [View.read_writes_eq_canon _ _ _ (cover0_B_3 c i arg2 harg2 arg3 harg3 arg4 harg4 arg5 harg5 arg6 harg6 hc0 x0 x1 x2 xo3 xo4)]
  unfold kernelRun0_B
  dsimp only
  sl_unfold_words
  rw [View.canon_unit_zero (S := S1x4x128) hz3]
  simp only [View.readAt_eq_ld, harg2.read_unread, harg3.read_unread, harg4.read_unread, harg5.read_unread,
    View.ld_unit_zero (S := S4x3456x128) hz3, View.ld_unit_zero (S := S1x4x128) hz3]

/-- A later step's counts block. -/
theorem pieceB4 (c : Dev nD) (i : grid0.Coords) (arg2 : Memref sig .tc .vmem S4x3456x128 .f32) (harg2 : arg2.IsWhole) (arg3 : Memref sig .tc .vmem S4x3456x128 .f32) (harg3 : arg3.IsWhole) (arg4 : Memref sig .tc .vmem S4x3456x128 .i32) (harg4 : arg4.IsWhole) (arg5 : Memref sig .tc .vmem S1x4x128 .f32) (harg5 : arg5.IsWhole) (arg6 : Memref sig .tc .vmem S1x4x128 .f32) (harg6 : arg6.IsWhole) (hc0 : ¬cond0_0 i)
    (x0 x1 : Vec F S4x3456x128 .f32) (x2 : Vec F S4x3456x128 .i32) (xo3 xo4 : Vec F S1x4x128 .f32) :
    out0_B_4 (F := F) c i arg2 harg2 arg3 harg3 arg4 harg4 arg5 harg5 arg6 harg6 hc0 x0 x1 x2 xo3 xo4
      = k0_pay3 (k0_pay10 x2) (k0_pay13 x2) (k0_pay17 (k0_pay14 x2)) (k0_pay20 (k0_pay6 x2))
          (k0_pay23 (k0_pay6 x2)) (k0_pay26 (k0_pay6 x2)) (k0_pay27 (k0_pay6 x2)) xo4 := by
  unfold out0_B_4
  rw [View.read_writes_eq_canon _ _ _ (cover0_B_4 c i arg2 harg2 arg3 harg3 arg4 harg4 arg5 harg5 arg6 harg6 hc0 x0 x1 x2 xo3 xo4)]
  unfold kernelRun0_B
  dsimp only
  sl_unfold_words
  rw [View.canon_unit_zero (S := S1x4x128) hz3]
  simp only [View.readAt_eq_ld, harg4.read_unread, harg6.read_unread,
    View.ld_unit_zero (S := S4x3456x128) hz3, View.ld_unit_zero (S := S1x4x128) hz3]

/-- A first step's sums block: the reset is stored, read back, and the update stored over it. -/
theorem pieceA3 (c : Dev nD) (i : grid0.Coords) (arg2 : Memref sig .tc .vmem S4x3456x128 .f32) (harg2 : arg2.IsWhole) (arg3 : Memref sig .tc .vmem S4x3456x128 .f32) (harg3 : arg3.IsWhole) (arg4 : Memref sig .tc .vmem S4x3456x128 .i32) (harg4 : arg4.IsWhole) (arg5 : Memref sig .tc .vmem S1x4x128 .f32) (harg5 : arg5.IsWhole) (arg6 : Memref sig .tc .vmem S1x4x128 .f32) (harg6 : arg6.IsWhole) (hc0 : cond0_0 i)
    (x0 x1 : Vec F S4x3456x128 .f32) (x2 : Vec F S4x3456x128 .i32) :
    out0_A_3 (F := F) c i arg2 harg2 arg3 harg3 arg4 harg4 arg5 harg5 arg6 harg6 hc0 x0 x1 x2
      = k0_pay2 (k0_pay9 x0 x1 x2) (k0_pay12 x0 x1 x2) (k0_pay16 (k0_pay15 x0 x1 x2)) (k0_pay19 (k0_pay6 x2) (k0_pay7 x0 x1))
          (k0_pay22 (k0_pay6 x2) (k0_pay7 x0 x1)) (k0_pay25 (k0_pay6 x2) (k0_pay7 x0 x1)) (k0_pay28 (k0_pay6 x2) (k0_pay7 x0 x1)) (k0_pay4 (F := F)) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_cons_unit_zero (S := S1x4x128) hz3]
  simp only [View.readAt_eq_ld, harg2.read_unread, harg3.read_unread, harg4.read_unread,
    View.ld_unit_zero (S := S4x3456x128) hz3, View.readCov_unit_zero (S := S1x4x128) _ hz3]

/-- A first step's counts block. -/
theorem pieceA4 (c : Dev nD) (i : grid0.Coords) (arg2 : Memref sig .tc .vmem S4x3456x128 .f32) (harg2 : arg2.IsWhole) (arg3 : Memref sig .tc .vmem S4x3456x128 .f32) (harg3 : arg3.IsWhole) (arg4 : Memref sig .tc .vmem S4x3456x128 .i32) (harg4 : arg4.IsWhole) (arg5 : Memref sig .tc .vmem S1x4x128 .f32) (harg5 : arg5.IsWhole) (arg6 : Memref sig .tc .vmem S1x4x128 .f32) (harg6 : arg6.IsWhole) (hc0 : cond0_0 i)
    (x0 x1 : Vec F S4x3456x128 .f32) (x2 : Vec F S4x3456x128 .i32) :
    out0_A_4 (F := F) c i arg2 harg2 arg3 harg3 arg4 harg4 arg5 harg5 arg6 harg6 hc0 x0 x1 x2
      = k0_pay3 (k0_pay10 x2) (k0_pay13 x2) (k0_pay17 (k0_pay14 x2)) (k0_pay20 (k0_pay6 x2))
          (k0_pay23 (k0_pay6 x2)) (k0_pay26 (k0_pay6 x2)) (k0_pay27 (k0_pay6 x2)) (k0_pay5 (F := F)) := by
  unfold out0_A_4
  rw [View.read_writes_eq_canon _ _ _ (cover0_A_4 c i arg2 harg2 arg3 harg3 arg4 harg4 arg5 harg5 arg6 harg6 hc0 x0 x1 x2)]
  unfold kernelRun0_A
  dsimp only
  sl_unfold_words
  rw [View.canon_cons_unit_zero (S := S1x4x128) hz3]
  simp only [View.readAt_eq_ld, harg4.read_unread,
    View.ld_unit_zero (S := S4x3456x128) hz3, View.readCov_unit_zero (S := S1x4x128) _ hz3]

end Pieces

/-! ## The payloads at an index, at the ideal instance -/

/-- The lane put back beside (batch entry, row). -/
theorem lift_lane (h : S4x3456x128.Reduces [2] S4x3456) (b : Fin 4) (r : Fin 3456) (l : Fin 128) :
    h.lift (ix2 b r) l = ix3 b r l := by
  funext c
  apply Fin.ext
  match c with
  | ⟨0, _⟩ => rfl
  | ⟨1, _⟩ => rfl
  | ⟨2, _⟩ => rfl

/-- The row put back beside the batch entry. -/
theorem lift_row (h : S4x3456.Reduces [1] S4) (b : Fin 4) (r : Fin 3456) :
    h.lift (ix1 b) r = ix2 b r := by
  funext c
  apply Fin.ext
  match c with
  | ⟨0, _⟩ => rfl
  | ⟨1, _⟩ => rfl

/-- The lane sum followed by the row sum, at a batch entry: the plain double sum. -/
theorem sum_rows_lanes (v : FVec Ideal S4x3456x128 .f32) (b : Fin 4) :
    multiReduction (F := Ideal) .add [1] S4
        (multiReduction (F := Ideal) .add [2] S4x3456 v 0x00000000#32 reduces_S4x3456x128_S4x3456 (.inl rfl) rfl)
        0x00000000#32 reduces_S4x3456_S4 (.inl rfl) rfl (ix1 b)
      = ∑ r : Fin 3456, ∑ l : Fin 128, v (ix3 b r l) := by
  refine (Ideal.multiReduction_add_single _ 0x00000000#32 reduces_S4x3456_S4 (.inl rfl) rfl (ix1 b)).trans ?_
  refine Fintype.sum_congr _ _ fun r => ?_
  refine (congrArg _ (lift_row reduces_S4x3456_S4 b r)).trans ?_
  refine (Ideal.multiReduction_add_single v 0x00000000#32 reduces_S4x3456x128_S4x3456 (.inl rfl) rfl (ix2 b r)).trans ?_
  exact Fintype.sum_congr _ _ fun l => congrArg v (lift_lane reduces_S4x3456x128_S4x3456 b r l)

/-- The label test, widened and converted: one where the mask word is the label, zero elsewhere. -/
theorem test_apply (m : IVec S4x3456x128 32) (a : ℕ) (j : S4x3456x128.Idx) :
    (sitofp (F := Ideal) .f32 (extui 32 (cmpi .eq m (broadcast S4x3456x128 (BitVec.ofNat 32 a))) natLt_1_32)) j
      = ind (m j) a := by
  show ((((IntOp.cmpi .eq (m j) (BitVec.ofNat 32 a)).setWidth 32).toInt : ℝ) : EReal) = _
  unfold IntOp.cmpi ind
  by_cases h : m j = BitVec.ofNat 32 a
  · rw [if_pos h, h]; simp
  · have hb : (m j == BitVec.ofNat 32 a) = false := by simpa using h
    rw [if_neg h, hb]; simp

/-- The squared difference at an index. -/
theorem sq_apply (x0 x1 : Vec Ideal S4x3456x128 .f32) (j : S4x3456x128.Idx) :
    k0_pay7 (F := Ideal) x0 x1 j = (x0 j - x1 j) * (x0 j - x1 j) := by
  unfold k0_pay7
  simp only [shapeCast_self]
  rfl

/-- The mask block is read as it is. -/
theorem mask_eq (x2 : Vec Ideal S4x3456x128 .i32) : k0_pay6 (F := Ideal) x2 = x2 := shapeCast_self _ _

/-- Column a of the sums: per batch entry, the block's squared differences summed where the mask word is a. -/
def colSum (x0 x1 : Vec Ideal S4x3456x128 .f32) (x2 : Vec Ideal S4x3456x128 .i32) (a : ℕ) (b : Fin 4) : EReal :=
  ∑ r : Fin 3456, ∑ l : Fin 128,
    ((x0 (ix3 b r l) - x1 (ix3 b r l)) * (x0 (ix3 b r l) - x1 (ix3 b r l))) * ind (x2 (ix3 b r l)) a

/-- Column a of the counts: per batch entry, the number of the block's mask words equal to a. -/
def colCnt (x2 : Vec Ideal S4x3456x128 .i32) (a : ℕ) (b : Fin 4) : EReal :=
  ∑ r : Fin 3456, ∑ l : Fin 128, ind (x2 (ix3 b r l)) a

/-- A masked sum of squared differences for one label, whichever payload spells it. -/
theorem label_sum (x0 x1 : Vec Ideal S4x3456x128 .f32) (x2 : Vec Ideal S4x3456x128 .i32) (a : ℕ) (b : Fin 4) :
    multiReduction (F := Ideal) .add [1] S4
        (multiReduction (F := Ideal) .add [2] S4x3456
          (mulf (k0_pay7 (F := Ideal) x0 x1)
            (sitofp (F := Ideal) .f32 (extui 32 (cmpi .eq (k0_pay6 (F := Ideal) x2) (broadcast S4x3456x128 (BitVec.ofNat 32 a))) natLt_1_32)))
          0x00000000#32 reduces_S4x3456x128_S4x3456 (.inl rfl) rfl)
        0x00000000#32 reduces_S4x3456_S4 (.inl rfl) rfl (ix1 b)
      = colSum x0 x1 x2 a b := by
  refine (sum_rows_lanes _ b).trans ?_
  unfold colSum
  refine Fintype.sum_congr _ _ fun r => Fintype.sum_congr _ _ fun l => ?_
  refine (mulf_apply _ _ _).trans ?_
  refine congrArg₂ (· * ·) (sq_apply x0 x1 _) ?_
  refine (test_apply _ a _).trans ?_
  exact congrArg (fun m : IVec S4x3456x128 32 => ind (m (ix3 b r l)) a) (mask_eq x2)

/-- A count for one label, whichever payload spells it. -/
theorem label_cnt (x2 : Vec Ideal S4x3456x128 .i32) (a : ℕ) (b : Fin 4) :
    multiReduction (F := Ideal) .add [1] S4
        (multiReduction (F := Ideal) .add [2] S4x3456
          (sitofp (F := Ideal) .f32 (extui 32 (cmpi .eq (k0_pay6 (F := Ideal) x2) (broadcast S4x3456x128 (BitVec.ofNat 32 a))) natLt_1_32))
          0x00000000#32 reduces_S4x3456x128_S4x3456 (.inl rfl) rfl)
        0x00000000#32 reduces_S4x3456_S4 (.inl rfl) rfl (ix1 b)
      = colCnt x2 a b := by
  refine (sum_rows_lanes _ b).trans ?_
  unfold colCnt
  refine Fintype.sum_congr _ _ fun r => Fintype.sum_congr _ _ fun l => ?_
  refine (test_apply _ a _).trans ?_
  exact congrArg (fun m : IVec S4x3456x128 32 => ind (m (ix3 b r l)) a) (mask_eq x2)

/-! The seven labels' payloads are the one masked sum. -/
theorem sum1 (x0 x1 : Vec Ideal S4x3456x128 .f32) (x2 : Vec Ideal S4x3456x128 .i32) (b : Fin 4) :
    k0_pay9 (F := Ideal) x0 x1 x2 (ix1 b) = colSum x0 x1 x2 1 b := label_sum x0 x1 x2 1 b
theorem sum2 (x0 x1 : Vec Ideal S4x3456x128 .f32) (x2 : Vec Ideal S4x3456x128 .i32) (b : Fin 4) :
    k0_pay12 (F := Ideal) x0 x1 x2 (ix1 b) = colSum x0 x1 x2 2 b := label_sum x0 x1 x2 2 b
theorem sum3 (x0 x1 : Vec Ideal S4x3456x128 .f32) (x2 : Vec Ideal S4x3456x128 .i32) (b : Fin 4) :
    k0_pay16 (F := Ideal) (k0_pay15 x0 x1 x2) (ix1 b) = colSum x0 x1 x2 3 b := label_sum x0 x1 x2 3 b
theorem sum4 (x0 x1 : Vec Ideal S4x3456x128 .f32) (x2 : Vec Ideal S4x3456x128 .i32) (b : Fin 4) :
    k0_pay19 (F := Ideal) (k0_pay6 x2) (k0_pay7 x0 x1) (ix1 b) = colSum x0 x1 x2 4 b := label_sum x0 x1 x2 4 b
theorem sum5 (x0 x1 : Vec Ideal S4x3456x128 .f32) (x2 : Vec Ideal S4x3456x128 .i32) (b : Fin 4) :
    k0_pay22 (F := Ideal) (k0_pay6 x2) (k0_pay7 x0 x1) (ix1 b) = colSum x0 x1 x2 5 b := label_sum x0 x1 x2 5 b
theorem sum6 (x0 x1 : Vec Ideal S4x3456x128 .f32) (x2 : Vec Ideal S4x3456x128 .i32) (b : Fin 4) :
    k0_pay25 (F := Ideal) (k0_pay6 x2) (k0_pay7 x0 x1) (ix1 b) = colSum x0 x1 x2 6 b := label_sum x0 x1 x2 6 b
theorem sum7 (x0 x1 : Vec Ideal S4x3456x128 .f32) (x2 : Vec Ideal S4x3456x128 .i32) (b : Fin 4) :
    k0_pay28 (F := Ideal) (k0_pay6 x2) (k0_pay7 x0 x1) (ix1 b) = colSum x0 x1 x2 7 b := label_sum x0 x1 x2 7 b

/-! The seven labels' counts are the one count. -/
theorem cnt1 (x2 : Vec Ideal S4x3456x128 .i32) (b : Fin 4) : k0_pay10 (F := Ideal) x2 (ix1 b) = colCnt x2 1 b := label_cnt x2 1 b
theorem cnt2 (x2 : Vec Ideal S4x3456x128 .i32) (b : Fin 4) : k0_pay13 (F := Ideal) x2 (ix1 b) = colCnt x2 2 b := label_cnt x2 2 b
theorem cnt3 (x2 : Vec Ideal S4x3456x128 .i32) (b : Fin 4) : k0_pay17 (F := Ideal) (k0_pay14 x2) (ix1 b) = colCnt x2 3 b := label_cnt x2 3 b
theorem cnt4 (x2 : Vec Ideal S4x3456x128 .i32) (b : Fin 4) : k0_pay20 (F := Ideal) (k0_pay6 x2) (ix1 b) = colCnt x2 4 b := label_cnt x2 4 b
theorem cnt5 (x2 : Vec Ideal S4x3456x128 .i32) (b : Fin 4) : k0_pay23 (F := Ideal) (k0_pay6 x2) (ix1 b) = colCnt x2 5 b := label_cnt x2 5 b
theorem cnt6 (x2 : Vec Ideal S4x3456x128 .i32) (b : Fin 4) : k0_pay26 (F := Ideal) (k0_pay6 x2) (ix1 b) = colCnt x2 6 b := label_cnt x2 6 b
/-- The seventh count is reduced where the block is assembled. -/
theorem cnt7 (x2 : Vec Ideal S4x3456x128 .i32) (b : Fin 4) :
    multiReduction (F := Ideal) .add [1] S4
        (multiReduction (F := Ideal) .add [2] S4x3456
          (k0_pay27 (F := Ideal) (k0_pay6 x2))
          0x00000000#32 reduces_S4x3456x128_S4x3456 (.inl rfl) rfl)
        0x00000000#32 reduces_S4x3456_S4 (.inl rfl) rfl (ix1 b) = colCnt x2 7 b := label_cnt x2 7 b

/-! ## The lanes of the increment -/

/-- A vector of four read as a column. -/
theorem col_apply (w : FVec Ideal S4 .f32) (b : Fin 4) :
    shapeCast S4x1 w shapeCasts_S4_S4x1 (ix2 b 0) = w (ix1 b) := by
  refine shapeCast_apply w shapeCasts_S4_S4x1 (ix2 b 0) (ix1 b) ?_
  rw [Shape.rowMajor_val_one, Shape.rowMajor_val_two]
  show b.val = b.val * 1 + 0
  omega

/-- Lane 0 of the joined columns is column 0. -/
theorem cols_apply_0 (w0 w1 w2 w3 w4 w5 w6 : FVec Ideal S4 .f32) (b : Fin 4) (l : Fin 7) (hl : l.val = 0) :
    concatenate S4x7 1 [⟨S4x1, shapeCast S4x1 w0 shapeCasts_S4_S4x1⟩, ⟨S4x1, shapeCast S4x1 w1 shapeCasts_S4_S4x1⟩, ⟨S4x1, shapeCast S4x1 w2 shapeCasts_S4_S4x1⟩, ⟨S4x1, shapeCast S4x1 w3 shapeCasts_S4_S4x1⟩, ⟨S4x1, shapeCast S4x1 w4 shapeCasts_S4_S4x1⟩, ⟨S4x1, shapeCast S4x1 w5 shapeCasts_S4_S4x1⟩, ⟨S4x1, shapeCast S4x1 w6 shapeCasts_S4_S4x1⟩]
        concatenates_S4x1_S4x1_S4x1_S4x1_S4x1_S4x1_S4x1_S4x7_d1 (ix2 b l) = w0 (ix1 b) := by
  refine (concatenate_apply_piece (1 : Fin S4x7.rank) [⟨S4x1, shapeCast S4x1 w0 shapeCasts_S4_S4x1⟩, ⟨S4x1, shapeCast S4x1 w1 shapeCasts_S4_S4x1⟩, ⟨S4x1, shapeCast S4x1 w2 shapeCasts_S4_S4x1⟩, ⟨S4x1, shapeCast S4x1 w3 shapeCasts_S4_S4x1⟩, ⟨S4x1, shapeCast S4x1 w4 shapeCasts_S4_S4x1⟩, ⟨S4x1, shapeCast S4x1 w5 shapeCasts_S4_S4x1⟩, ⟨S4x1, shapeCast S4x1 w6 shapeCasts_S4_S4x1⟩]
    concatenates_S4x1_S4x1_S4x1_S4x1_S4x1_S4x1_S4x1_S4x7_d1 (ix2 b l)
    0 (by show 0 < 7; omega) S4x1 (shapeCast S4x1 w0 shapeCasts_S4_S4x1) rfl rfl 0 rfl (ix2 b 0) ?_ ?_).trans (col_apply w0 b)
  · intro c hc
    match c with
    | ⟨0, _⟩ => rfl
    | ⟨1, _⟩ => exact absurd rfl hc
  · show 0 + 0 = l.val
    omega

/-- Lane 1 of the joined columns is column 1. -/
theorem cols_apply_1 (w0 w1 w2 w3 w4 w5 w6 : FVec Ideal S4 .f32) (b : Fin 4) (l : Fin 7) (hl : l.val = 1) :
    concatenate S4x7 1 [⟨S4x1, shapeCast S4x1 w0 shapeCasts_S4_S4x1⟩, ⟨S4x1, shapeCast S4x1 w1 shapeCasts_S4_S4x1⟩, ⟨S4x1, shapeCast S4x1 w2 shapeCasts_S4_S4x1⟩, ⟨S4x1, shapeCast S4x1 w3 shapeCasts_S4_S4x1⟩, ⟨S4x1, shapeCast S4x1 w4 shapeCasts_S4_S4x1⟩, ⟨S4x1, shapeCast S4x1 w5 shapeCasts_S4_S4x1⟩, ⟨S4x1, shapeCast S4x1 w6 shapeCasts_S4_S4x1⟩]
        concatenates_S4x1_S4x1_S4x1_S4x1_S4x1_S4x1_S4x1_S4x7_d1 (ix2 b l) = w1 (ix1 b) := by
  refine (concatenate_apply_piece (1 : Fin S4x7.rank) [⟨S4x1, shapeCast S4x1 w0 shapeCasts_S4_S4x1⟩, ⟨S4x1, shapeCast S4x1 w1 shapeCasts_S4_S4x1⟩, ⟨S4x1, shapeCast S4x1 w2 shapeCasts_S4_S4x1⟩, ⟨S4x1, shapeCast S4x1 w3 shapeCasts_S4_S4x1⟩, ⟨S4x1, shapeCast S4x1 w4 shapeCasts_S4_S4x1⟩, ⟨S4x1, shapeCast S4x1 w5 shapeCasts_S4_S4x1⟩, ⟨S4x1, shapeCast S4x1 w6 shapeCasts_S4_S4x1⟩]
    concatenates_S4x1_S4x1_S4x1_S4x1_S4x1_S4x1_S4x1_S4x7_d1 (ix2 b l)
    1 (by show 1 < 7; omega) S4x1 (shapeCast S4x1 w1 shapeCasts_S4_S4x1) rfl rfl 1 rfl (ix2 b 0) ?_ ?_).trans (col_apply w1 b)
  · intro c hc
    match c with
    | ⟨0, _⟩ => rfl
    | ⟨1, _⟩ => exact absurd rfl hc
  · show 1 + 0 = l.val
    omega

/-- Lane 2 of the joined columns is column 2. -/
theorem cols_apply_2 (w0 w1 w2 w3 w4 w5 w6 : FVec Ideal S4 .f32) (b : Fin 4) (l : Fin 7) (hl : l.val = 2) :
    concatenate S4x7 1 [⟨S4x1, shapeCast S4x1 w0 shapeCasts_S4_S4x1⟩, ⟨S4x1, shapeCast S4x1 w1 shapeCasts_S4_S4x1⟩, ⟨S4x1, shapeCast S4x1 w2 shapeCasts_S4_S4x1⟩, ⟨S4x1, shapeCast S4x1 w3 shapeCasts_S4_S4x1⟩, ⟨S4x1, shapeCast S4x1 w4 shapeCasts_S4_S4x1⟩, ⟨S4x1, shapeCast S4x1 w5 shapeCasts_S4_S4x1⟩, ⟨S4x1, shapeCast S4x1 w6 shapeCasts_S4_S4x1⟩]
        concatenates_S4x1_S4x1_S4x1_S4x1_S4x1_S4x1_S4x1_S4x7_d1 (ix2 b l) = w2 (ix1 b) := by
  refine (concatenate_apply_piece (1 : Fin S4x7.rank) [⟨S4x1, shapeCast S4x1 w0 shapeCasts_S4_S4x1⟩, ⟨S4x1, shapeCast S4x1 w1 shapeCasts_S4_S4x1⟩, ⟨S4x1, shapeCast S4x1 w2 shapeCasts_S4_S4x1⟩, ⟨S4x1, shapeCast S4x1 w3 shapeCasts_S4_S4x1⟩, ⟨S4x1, shapeCast S4x1 w4 shapeCasts_S4_S4x1⟩, ⟨S4x1, shapeCast S4x1 w5 shapeCasts_S4_S4x1⟩, ⟨S4x1, shapeCast S4x1 w6 shapeCasts_S4_S4x1⟩]
    concatenates_S4x1_S4x1_S4x1_S4x1_S4x1_S4x1_S4x1_S4x7_d1 (ix2 b l)
    2 (by show 2 < 7; omega) S4x1 (shapeCast S4x1 w2 shapeCasts_S4_S4x1) rfl rfl 2 rfl (ix2 b 0) ?_ ?_).trans (col_apply w2 b)
  · intro c hc
    match c with
    | ⟨0, _⟩ => rfl
    | ⟨1, _⟩ => exact absurd rfl hc
  · show 2 + 0 = l.val
    omega

/-- Lane 3 of the joined columns is column 3. -/
theorem cols_apply_3 (w0 w1 w2 w3 w4 w5 w6 : FVec Ideal S4 .f32) (b : Fin 4) (l : Fin 7) (hl : l.val = 3) :
    concatenate S4x7 1 [⟨S4x1, shapeCast S4x1 w0 shapeCasts_S4_S4x1⟩, ⟨S4x1, shapeCast S4x1 w1 shapeCasts_S4_S4x1⟩, ⟨S4x1, shapeCast S4x1 w2 shapeCasts_S4_S4x1⟩, ⟨S4x1, shapeCast S4x1 w3 shapeCasts_S4_S4x1⟩, ⟨S4x1, shapeCast S4x1 w4 shapeCasts_S4_S4x1⟩, ⟨S4x1, shapeCast S4x1 w5 shapeCasts_S4_S4x1⟩, ⟨S4x1, shapeCast S4x1 w6 shapeCasts_S4_S4x1⟩]
        concatenates_S4x1_S4x1_S4x1_S4x1_S4x1_S4x1_S4x1_S4x7_d1 (ix2 b l) = w3 (ix1 b) := by
  refine (concatenate_apply_piece (1 : Fin S4x7.rank) [⟨S4x1, shapeCast S4x1 w0 shapeCasts_S4_S4x1⟩, ⟨S4x1, shapeCast S4x1 w1 shapeCasts_S4_S4x1⟩, ⟨S4x1, shapeCast S4x1 w2 shapeCasts_S4_S4x1⟩, ⟨S4x1, shapeCast S4x1 w3 shapeCasts_S4_S4x1⟩, ⟨S4x1, shapeCast S4x1 w4 shapeCasts_S4_S4x1⟩, ⟨S4x1, shapeCast S4x1 w5 shapeCasts_S4_S4x1⟩, ⟨S4x1, shapeCast S4x1 w6 shapeCasts_S4_S4x1⟩]
    concatenates_S4x1_S4x1_S4x1_S4x1_S4x1_S4x1_S4x1_S4x7_d1 (ix2 b l)
    3 (by show 3 < 7; omega) S4x1 (shapeCast S4x1 w3 shapeCasts_S4_S4x1) rfl rfl 3 rfl (ix2 b 0) ?_ ?_).trans (col_apply w3 b)
  · intro c hc
    match c with
    | ⟨0, _⟩ => rfl
    | ⟨1, _⟩ => exact absurd rfl hc
  · show 3 + 0 = l.val
    omega

/-- Lane 4 of the joined columns is column 4. -/
theorem cols_apply_4 (w0 w1 w2 w3 w4 w5 w6 : FVec Ideal S4 .f32) (b : Fin 4) (l : Fin 7) (hl : l.val = 4) :
    concatenate S4x7 1 [⟨S4x1, shapeCast S4x1 w0 shapeCasts_S4_S4x1⟩, ⟨S4x1, shapeCast S4x1 w1 shapeCasts_S4_S4x1⟩, ⟨S4x1, shapeCast S4x1 w2 shapeCasts_S4_S4x1⟩, ⟨S4x1, shapeCast S4x1 w3 shapeCasts_S4_S4x1⟩, ⟨S4x1, shapeCast S4x1 w4 shapeCasts_S4_S4x1⟩, ⟨S4x1, shapeCast S4x1 w5 shapeCasts_S4_S4x1⟩, ⟨S4x1, shapeCast S4x1 w6 shapeCasts_S4_S4x1⟩]
        concatenates_S4x1_S4x1_S4x1_S4x1_S4x1_S4x1_S4x1_S4x7_d1 (ix2 b l) = w4 (ix1 b) := by
  refine (concatenate_apply_piece (1 : Fin S4x7.rank) [⟨S4x1, shapeCast S4x1 w0 shapeCasts_S4_S4x1⟩, ⟨S4x1, shapeCast S4x1 w1 shapeCasts_S4_S4x1⟩, ⟨S4x1, shapeCast S4x1 w2 shapeCasts_S4_S4x1⟩, ⟨S4x1, shapeCast S4x1 w3 shapeCasts_S4_S4x1⟩, ⟨S4x1, shapeCast S4x1 w4 shapeCasts_S4_S4x1⟩, ⟨S4x1, shapeCast S4x1 w5 shapeCasts_S4_S4x1⟩, ⟨S4x1, shapeCast S4x1 w6 shapeCasts_S4_S4x1⟩]
    concatenates_S4x1_S4x1_S4x1_S4x1_S4x1_S4x1_S4x1_S4x7_d1 (ix2 b l)
    4 (by show 4 < 7; omega) S4x1 (shapeCast S4x1 w4 shapeCasts_S4_S4x1) rfl rfl 4 rfl (ix2 b 0) ?_ ?_).trans (col_apply w4 b)
  · intro c hc
    match c with
    | ⟨0, _⟩ => rfl
    | ⟨1, _⟩ => exact absurd rfl hc
  · show 4 + 0 = l.val
    omega

/-- Lane 5 of the joined columns is column 5. -/
theorem cols_apply_5 (w0 w1 w2 w3 w4 w5 w6 : FVec Ideal S4 .f32) (b : Fin 4) (l : Fin 7) (hl : l.val = 5) :
    concatenate S4x7 1 [⟨S4x1, shapeCast S4x1 w0 shapeCasts_S4_S4x1⟩, ⟨S4x1, shapeCast S4x1 w1 shapeCasts_S4_S4x1⟩, ⟨S4x1, shapeCast S4x1 w2 shapeCasts_S4_S4x1⟩, ⟨S4x1, shapeCast S4x1 w3 shapeCasts_S4_S4x1⟩, ⟨S4x1, shapeCast S4x1 w4 shapeCasts_S4_S4x1⟩, ⟨S4x1, shapeCast S4x1 w5 shapeCasts_S4_S4x1⟩, ⟨S4x1, shapeCast S4x1 w6 shapeCasts_S4_S4x1⟩]
        concatenates_S4x1_S4x1_S4x1_S4x1_S4x1_S4x1_S4x1_S4x7_d1 (ix2 b l) = w5 (ix1 b) := by
  refine (concatenate_apply_piece (1 : Fin S4x7.rank) [⟨S4x1, shapeCast S4x1 w0 shapeCasts_S4_S4x1⟩, ⟨S4x1, shapeCast S4x1 w1 shapeCasts_S4_S4x1⟩, ⟨S4x1, shapeCast S4x1 w2 shapeCasts_S4_S4x1⟩, ⟨S4x1, shapeCast S4x1 w3 shapeCasts_S4_S4x1⟩, ⟨S4x1, shapeCast S4x1 w4 shapeCasts_S4_S4x1⟩, ⟨S4x1, shapeCast S4x1 w5 shapeCasts_S4_S4x1⟩, ⟨S4x1, shapeCast S4x1 w6 shapeCasts_S4_S4x1⟩]
    concatenates_S4x1_S4x1_S4x1_S4x1_S4x1_S4x1_S4x1_S4x7_d1 (ix2 b l)
    5 (by show 5 < 7; omega) S4x1 (shapeCast S4x1 w5 shapeCasts_S4_S4x1) rfl rfl 5 rfl (ix2 b 0) ?_ ?_).trans (col_apply w5 b)
  · intro c hc
    match c with
    | ⟨0, _⟩ => rfl
    | ⟨1, _⟩ => exact absurd rfl hc
  · show 5 + 0 = l.val
    omega

/-- Lane 6 of the joined columns is column 6. -/
theorem cols_apply_6 (w0 w1 w2 w3 w4 w5 w6 : FVec Ideal S4 .f32) (b : Fin 4) (l : Fin 7) (hl : l.val = 6) :
    concatenate S4x7 1 [⟨S4x1, shapeCast S4x1 w0 shapeCasts_S4_S4x1⟩, ⟨S4x1, shapeCast S4x1 w1 shapeCasts_S4_S4x1⟩, ⟨S4x1, shapeCast S4x1 w2 shapeCasts_S4_S4x1⟩, ⟨S4x1, shapeCast S4x1 w3 shapeCasts_S4_S4x1⟩, ⟨S4x1, shapeCast S4x1 w4 shapeCasts_S4_S4x1⟩, ⟨S4x1, shapeCast S4x1 w5 shapeCasts_S4_S4x1⟩, ⟨S4x1, shapeCast S4x1 w6 shapeCasts_S4_S4x1⟩]
        concatenates_S4x1_S4x1_S4x1_S4x1_S4x1_S4x1_S4x1_S4x7_d1 (ix2 b l) = w6 (ix1 b) := by
  refine (concatenate_apply_piece (1 : Fin S4x7.rank) [⟨S4x1, shapeCast S4x1 w0 shapeCasts_S4_S4x1⟩, ⟨S4x1, shapeCast S4x1 w1 shapeCasts_S4_S4x1⟩, ⟨S4x1, shapeCast S4x1 w2 shapeCasts_S4_S4x1⟩, ⟨S4x1, shapeCast S4x1 w3 shapeCasts_S4_S4x1⟩, ⟨S4x1, shapeCast S4x1 w4 shapeCasts_S4_S4x1⟩, ⟨S4x1, shapeCast S4x1 w5 shapeCasts_S4_S4x1⟩, ⟨S4x1, shapeCast S4x1 w6 shapeCasts_S4_S4x1⟩]
    concatenates_S4x1_S4x1_S4x1_S4x1_S4x1_S4x1_S4x1_S4x7_d1 (ix2 b l)
    6 (by show 6 < 7; omega) S4x1 (shapeCast S4x1 w6 shapeCasts_S4_S4x1) rfl rfl 6 rfl (ix2 b 0) ?_ ?_).trans (col_apply w6 b)
  · intro c hc
    match c with
    | ⟨0, _⟩ => rfl
    | ⟨1, _⟩ => exact absurd rfl hc
  · show 6 + 0 = l.val
    omega

/-- The zero fill of the lanes past the seventh. -/
theorem fill_apply (j : S4x121.Idx) : k0_pay1 (F := Ideal) j = 0 := Ideal.ofBits_zero_f32

/-- The block a first step resets the sums to. -/
theorem reset3_apply (o : S1x4x128.Idx) : k0_pay4 (F := Ideal) o = 0 := Ideal.ofBits_zero_f32

/-- The block a first step resets the counts to. -/
theorem reset4_apply (o : S1x4x128.Idx) : k0_pay5 (F := Ideal) o = 0 := Ideal.ofBits_zero_f32

/-- What a lane takes of seven columns: lane k below seven takes column k, the other lanes zero. -/
def pick7 (w0 w1 w2 w3 w4 w5 w6 : EReal) (n : ℕ) : EReal :=
  if n = 0 then w0 else if n = 1 then w1 else if n = 2 then w2 else if n = 3 then w3
  else if n = 4 then w4 else if n = 5 then w5 else if n = 6 then w6 else 0

/-- Over columns numbered by their label the selection is the column of the lane's label. -/
theorem pick7_cols (f : ℕ → EReal) (n : ℕ) :
    pick7 (f 1) (f 2) (f 3) (f 4) (f 5) (f 6) (f 7) n = if n < 7 then f (n + 1) else 0 := by
  unfold pick7
  by_cases h : n < 7
  · have h7 : n = 0 ∨ n = 1 ∨ n = 2 ∨ n = 3 ∨ n = 4 ∨ n = 5 ∨ n = 6 := by omega
    rcases h7 with rfl | rfl | rfl | rfl | rfl | rfl | rfl <;> simp
  · rw [if_neg h, if_neg (by omega), if_neg (by omega), if_neg (by omega), if_neg (by omega), if_neg (by omega), if_neg (by omega), if_neg (by omega)]

/-- The increment at (batch entry, lane): the seven columns joined, zero filled to 128 lanes, one leading axis added. -/
theorem lanes_apply (w0 w1 w2 w3 w4 w5 w6 : FVec Ideal S4 .f32) (z : Fin 1) (b : Fin 4) (l : Fin 128) :
    shapeCast S1x4x128
        (concatenate S4x128 1
          [⟨S4x7, concatenate S4x7 1 [⟨S4x1, shapeCast S4x1 w0 shapeCasts_S4_S4x1⟩, ⟨S4x1, shapeCast S4x1 w1 shapeCasts_S4_S4x1⟩, ⟨S4x1, shapeCast S4x1 w2 shapeCasts_S4_S4x1⟩, ⟨S4x1, shapeCast S4x1 w3 shapeCasts_S4_S4x1⟩, ⟨S4x1, shapeCast S4x1 w4 shapeCasts_S4_S4x1⟩, ⟨S4x1, shapeCast S4x1 w5 shapeCasts_S4_S4x1⟩, ⟨S4x1, shapeCast S4x1 w6 shapeCasts_S4_S4x1⟩]
              concatenates_S4x1_S4x1_S4x1_S4x1_S4x1_S4x1_S4x1_S4x7_d1⟩,
           ⟨S4x121, k0_pay1 (F := Ideal)⟩] concatenates_S4x7_S4x121_S4x128_d1)
        shapeCasts_S4x128_S1x4x128 (ix3 z b l)
      = pick7 (w0 (ix1 b)) (w1 (ix1 b)) (w2 (ix1 b)) (w3 (ix1 b)) (w4 (ix1 b)) (w5 (ix1 b)) (w6 (ix1 b)) l.val := by
  refine (shapeCast_apply _ shapeCasts_S4x128_S1x4x128 (ix3 z b l) (ix2 b l) ?_).trans ?_
  · rw [Shape.rowMajor_val_two, Shape.rowMajor_val_three]
    show b.val * 128 + l.val = (z.val * 4 + b.val) * 128 + l.val
    have := z.isLt
    omega
  by_cases hl : l.val < 7
  · refine (concatenate_pair_apply_left (1 : Fin S4x128.rank) _ _ concatenates_S4x7_S4x121_S4x128_d1 (ix2 b l) rfl
      (ix2 b ⟨l.val, hl⟩) ?_).trans ?_
    · intro c
      match c with
      | ⟨0, _⟩ => rfl
      | ⟨1, _⟩ => rfl
    have h7 : l.val = 0 ∨ l.val = 1 ∨ l.val = 2 ∨ l.val = 3 ∨ l.val = 4 ∨ l.val = 5 ∨ l.val = 6 := by omega
    rcases h7 with h | h | h | h | h | h | h
    · exact (cols_apply_0 w0 w1 w2 w3 w4 w5 w6 b ⟨l.val, hl⟩ h).trans (by simp [pick7, h])
    · exact (cols_apply_1 w0 w1 w2 w3 w4 w5 w6 b ⟨l.val, hl⟩ h).trans (by simp [pick7, h])
    · exact (cols_apply_2 w0 w1 w2 w3 w4 w5 w6 b ⟨l.val, hl⟩ h).trans (by simp [pick7, h])
    · exact (cols_apply_3 w0 w1 w2 w3 w4 w5 w6 b ⟨l.val, hl⟩ h).trans (by simp [pick7, h])
    · exact (cols_apply_4 w0 w1 w2 w3 w4 w5 w6 b ⟨l.val, hl⟩ h).trans (by simp [pick7, h])
    · exact (cols_apply_5 w0 w1 w2 w3 w4 w5 w6 b ⟨l.val, hl⟩ h).trans (by simp [pick7, h])
    · exact (cols_apply_6 w0 w1 w2 w3 w4 w5 w6 b ⟨l.val, hl⟩ h).trans (by simp [pick7, h])
  · refine (concatenate_pair_apply_right (1 : Fin S4x128.rank) _ _ concatenates_S4x7_S4x121_S4x128_d1 (ix2 b l) rfl rfl
      (ix2 b ⟨l.val - 7, by have := l.isLt; omega⟩) ?_ ?_).trans ?_
    · intro c hc
      match c with
      | ⟨0, _⟩ => rfl
      | ⟨1, _⟩ => exact absurd rfl hc
    · show (l.val - 7) + 7 = l.val
      omega
    refine (fill_apply _).trans ?_
    unfold pick7
    rw [if_neg (by omega), if_neg (by omega), if_neg (by omega), if_neg (by omega), if_neg (by omega), if_neg (by omega), if_neg (by omega)]

/-- The sums block at (batch entry, lane): the block before plus the lane's column. -/
theorem sums_apply (w0 w1 w2 w3 w4 w5 w6 : FVec Ideal S4 .f32) (prev : Vec Ideal S1x4x128 .f32) (z : Fin 1) (b : Fin 4) (l : Fin 128) :
    k0_pay2 (F := Ideal) w0 w1 w2 w3 w4 w5 w6 prev (ix3 z b l)
      = prev (ix3 z b l) + pick7 (w0 (ix1 b)) (w1 (ix1 b)) (w2 (ix1 b)) (w3 (ix1 b)) (w4 (ix1 b)) (w5 (ix1 b)) (w6 (ix1 b)) l.val := by
  unfold k0_pay2
  refine (addf_apply _ _ _).trans ?_
  exact congrArg₂ (· + ·) (congrFun (shapeCast_self prev _) _) (lanes_apply w0 w1 w2 w3 w4 w5 w6 z b l)

/-- The counts block at (batch entry, lane); its seventh column is reduced here. -/
theorem cnts_apply (w0 w1 w2 w3 w4 w5 : FVec Ideal S4 .f32) (v68 : FVec Ideal S4x3456x128 .f32) (prev : Vec Ideal S1x4x128 .f32)
    (z : Fin 1) (b : Fin 4) (l : Fin 128) :
    k0_pay3 (F := Ideal) w0 w1 w2 w3 w4 w5 v68 prev (ix3 z b l)
      = prev (ix3 z b l) + pick7 (w0 (ix1 b)) (w1 (ix1 b)) (w2 (ix1 b)) (w3 (ix1 b)) (w4 (ix1 b)) (w5 (ix1 b))
          ((multiReduction (F := Ideal) .add [1] S4
        (multiReduction (F := Ideal) .add [2] S4x3456 v68 0x00000000#32 reduces_S4x3456x128_S4x3456 (.inl rfl) rfl)
        0x00000000#32 reduces_S4x3456_S4 (.inl rfl) rfl) (ix1 b)) l.val := by
  unfold k0_pay3
  refine (addf_apply _ _ _).trans ?_
  exact congrArg₂ (· + ·) (congrFun (shapeCast_self prev _) _) (lanes_apply w0 w1 w2 w3 w4 w5 (multiReduction (F := Ideal) .add [1] S4
        (multiReduction (F := Ideal) .add [2] S4x3456 v68 0x00000000#32 reduces_S4x3456x128_S4x3456 (.inl rfl) rfl)
        0x00000000#32 reduces_S4x3456_S4 (.inl rfl) rfl) z b l)

/-- A step's sums payload over any block before it: that block plus the step's sums. -/
theorem sums_step (x0 x1 : Vec Ideal S4x3456x128 .f32) (x2 : Vec Ideal S4x3456x128 .i32) (prev : Vec Ideal S1x4x128 .f32)
    (o : S1x4x128.Idx) :
    k0_pay2 (F := Ideal) (k0_pay9 x0 x1 x2) (k0_pay12 x0 x1 x2) (k0_pay16 (k0_pay15 x0 x1 x2)) (k0_pay19 (k0_pay6 x2) (k0_pay7 x0 x1))
        (k0_pay22 (k0_pay6 x2) (k0_pay7 x0 x1)) (k0_pay25 (k0_pay6 x2) (k0_pay7 x0 x1)) (k0_pay28 (k0_pay6 x2) (k0_pay7 x0 x1)) prev o
      = prev o + stepSum x0 x1 x2 o := by
  obtain ⟨z, b, l, rfl⟩ : ∃ (z : Fin 1) (b : Fin 4) (l : Fin 128), o = ix3 z b l := ⟨o 0, o 1, o 2, eq_ix3 o⟩
  refine (sums_apply _ _ _ _ _ _ _ prev z b l).trans ?_
  rw [sum1, sum2, sum3, sum4, sum5, sum6, sum7]
  refine congrArg (prev (ix3 z b l) + ·) ?_
  exact pick7_cols (fun a => colSum x0 x1 x2 a b) l.val

/-- A step's counts payload over any block before it: that block plus the step's counts. -/
theorem cnts_step (x2 : Vec Ideal S4x3456x128 .i32) (prev : Vec Ideal S1x4x128 .f32) (o : S1x4x128.Idx) :
    k0_pay3 (F := Ideal) (k0_pay10 x2) (k0_pay13 x2) (k0_pay17 (k0_pay14 x2)) (k0_pay20 (k0_pay6 x2))
        (k0_pay23 (k0_pay6 x2)) (k0_pay26 (k0_pay6 x2)) (k0_pay27 (k0_pay6 x2)) prev o
      = prev o + stepCnt x2 o := by
  obtain ⟨z, b, l, rfl⟩ : ∃ (z : Fin 1) (b : Fin 4) (l : Fin 128), o = ix3 z b l := ⟨o 0, o 1, o 2, eq_ix3 o⟩
  refine (cnts_apply _ _ _ _ _ _ _ prev z b l).trans ?_
  rw [cnt1, cnt2, cnt3, cnt4, cnt5, cnt6, cnt7]
  refine congrArg (prev (ix3 z b l) + ·) ?_
  exact pick7_cols (fun a => colCnt x2 a b) l.val

/-! ## The four steps -/

/-- A core's first step: the sums block is reset to zero and the step's sums are added. -/
theorem first_sums (c : Dev nD) (i : grid0.Coords) (arg2 : Memref sig .tc .vmem S4x3456x128 .f32) (harg2 : arg2.IsWhole) (arg3 : Memref sig .tc .vmem S4x3456x128 .f32) (harg3 : arg3.IsWhole) (arg4 : Memref sig .tc .vmem S4x3456x128 .i32) (harg4 : arg4.IsWhole) (arg5 : Memref sig .tc .vmem S1x4x128 .f32) (harg5 : arg5.IsWhole) (arg6 : Memref sig .tc .vmem S1x4x128 .f32) (harg6 : arg6.IsWhole) (hc0 : cond0_0 i)
    (x0 x1 : Vec Ideal S4x3456x128 .f32) (x2 : Vec Ideal S4x3456x128 .i32) :
    out0_A_3 (F := Ideal) c i arg2 harg2 arg3 harg3 arg4 harg4 arg5 harg5 arg6 harg6 hc0 x0 x1 x2 = fun o => 0 + stepSum x0 x1 x2 o := by
  refine (pieceA3 (F := Ideal) c i arg2 harg2 arg3 harg3 arg4 harg4 arg5 harg5 arg6 harg6 hc0 x0 x1 x2).trans ?_
  funext o
  refine (sums_step x0 x1 x2 (k0_pay4 (F := Ideal)) o).trans ?_
  exact congrArg (· + stepSum x0 x1 x2 o) (reset3_apply o)

/-- A core's first step: the counts block is reset to zero and the step's counts are added. -/
theorem first_cnts (c : Dev nD) (i : grid0.Coords) (arg2 : Memref sig .tc .vmem S4x3456x128 .f32) (harg2 : arg2.IsWhole) (arg3 : Memref sig .tc .vmem S4x3456x128 .f32) (harg3 : arg3.IsWhole) (arg4 : Memref sig .tc .vmem S4x3456x128 .i32) (harg4 : arg4.IsWhole) (arg5 : Memref sig .tc .vmem S1x4x128 .f32) (harg5 : arg5.IsWhole) (arg6 : Memref sig .tc .vmem S1x4x128 .f32) (harg6 : arg6.IsWhole) (hc0 : cond0_0 i)
    (x0 x1 : Vec Ideal S4x3456x128 .f32) (x2 : Vec Ideal S4x3456x128 .i32) :
    out0_A_4 (F := Ideal) c i arg2 harg2 arg3 harg3 arg4 harg4 arg5 harg5 arg6 harg6 hc0 x0 x1 x2 = fun o => 0 + stepCnt x2 o := by
  refine (pieceA4 (F := Ideal) c i arg2 harg2 arg3 harg3 arg4 harg4 arg5 harg5 arg6 harg6 hc0 x0 x1 x2).trans ?_
  funext o
  refine (cnts_step x2 (k0_pay5 (F := Ideal)) o).trans ?_
  exact congrArg (· + stepCnt x2 o) (reset4_apply o)

/-- A later step: the step's sums are added to what the step before left. -/
theorem next_sums (c : Dev nD) (i : grid0.Coords) (arg2 : Memref sig .tc .vmem S4x3456x128 .f32) (harg2 : arg2.IsWhole) (arg3 : Memref sig .tc .vmem S4x3456x128 .f32) (harg3 : arg3.IsWhole) (arg4 : Memref sig .tc .vmem S4x3456x128 .i32) (harg4 : arg4.IsWhole) (arg5 : Memref sig .tc .vmem S1x4x128 .f32) (harg5 : arg5.IsWhole) (arg6 : Memref sig .tc .vmem S1x4x128 .f32) (harg6 : arg6.IsWhole) (hc0 : ¬cond0_0 i)
    (x0 x1 : Vec Ideal S4x3456x128 .f32) (x2 : Vec Ideal S4x3456x128 .i32) (xo3 xo4 : Vec Ideal S1x4x128 .f32) :
    out0_B_3 (F := Ideal) c i arg2 harg2 arg3 harg3 arg4 harg4 arg5 harg5 arg6 harg6 hc0 x0 x1 x2 xo3 xo4 = fun o => xo3 o + stepSum x0 x1 x2 o := by
  refine (pieceB3 (F := Ideal) c i arg2 harg2 arg3 harg3 arg4 harg4 arg5 harg5 arg6 harg6 hc0 x0 x1 x2 xo3 xo4).trans ?_
  funext o
  exact sums_step x0 x1 x2 xo3 o

/-- A later step: the step's counts are added to what the step before left. -/
theorem next_cnts (c : Dev nD) (i : grid0.Coords) (arg2 : Memref sig .tc .vmem S4x3456x128 .f32) (harg2 : arg2.IsWhole) (arg3 : Memref sig .tc .vmem S4x3456x128 .f32) (harg3 : arg3.IsWhole) (arg4 : Memref sig .tc .vmem S4x3456x128 .i32) (harg4 : arg4.IsWhole) (arg5 : Memref sig .tc .vmem S1x4x128 .f32) (harg5 : arg5.IsWhole) (arg6 : Memref sig .tc .vmem S1x4x128 .f32) (harg6 : arg6.IsWhole) (hc0 : ¬cond0_0 i)
    (x0 x1 : Vec Ideal S4x3456x128 .f32) (x2 : Vec Ideal S4x3456x128 .i32) (xo3 xo4 : Vec Ideal S1x4x128 .f32) :
    out0_B_4 (F := Ideal) c i arg2 harg2 arg3 harg3 arg4 harg4 arg5 harg5 arg6 harg6 hc0 x0 x1 x2 xo3 xo4 = fun o => xo4 o + stepCnt x2 o := by
  refine (pieceB4 (F := Ideal) c i arg2 harg2 arg3 harg3 arg4 harg4 arg5 harg5 arg6 harg6 hc0 x0 x1 x2 xo3 xo4).trans ?_
  funext o
  exact cnts_step x2 xo4 o

end Cert.MaskedMean.Step

end
-- ==== Proof.KerArray.lean ====
/-
  The two accumulator arrays when the region ends: each core's block holds the sum of its eight steps.
-/
import proofs.«420671_j68152541053394_4_alg».proof.Proof.KerStep
import Idealize.ShloMosaic.Lib.Pipeline.Value

noncomputable section

namespace Cert.MaskedMean.Arrays

open Idealize.ShloMosaic Idealize.ShloMosaic.TcCoe Idealize.SL.Sem
open Idealize.ShloMosaic.Pipeline (Dat)
open Idealize.ShloMosaic.ValueIdx
open Cert.KernelIdeal Cert.KernelIdeal.Gen Cert.MaskedMean

variable (m : (ℓ : Loc nD τ sig) → Buf (Elt Ideal) ℓ)

/-! ## The running sum of a core -/

/-- The grid has sixteen points. -/
theorem N16 : cfg0.N = 16 := N_0

/-- The grid point with number `n` (a number past the grid wraps round; only `n < 16` is used). -/
def pt (n : ℕ) : Fin cfg0.N := ⟨n % 16, lt_of_lt_of_eq (Nat.mod_lt n (by decide)) N16.symm⟩

theorem pt_val (n : ℕ) (h : n < 16) : (pt n).val = n := Nat.mod_eq_of_lt h

theorem pt_mk (n : ℕ) (h : n < cfg0.N) : pt n = ⟨n, h⟩ := Fin.ext (Nat.mod_eq_of_lt (lt_of_lt_of_eq h N16))

/-- What a core's accumulator holds after the point `n` when the point `k` adds `f k`: zero plus the addends of the
    points from the core's first, `8 ⌊n / 8⌋`, up to `n`. -/
def acc (f : ℕ → O3.Idx → EReal) (n : ℕ) : O3.Idx → EReal :=
  fun o => 0 + ∑ k ∈ Finset.range (n % 8 + 1), f (8 * (n / 8) + k) o

/-- At a core's first point the sum has one addend. -/
theorem acc_first (f : ℕ → O3.Idx → EReal) (n : ℕ) (h : n % 8 = 0) : acc f n = fun o => 0 + f n o := by
  funext o
  have e : 8 * (n / 8) + 0 = n := by omega
  unfold acc
  rw [h, Nat.zero_add, Finset.sum_range_one, e]

/-- At a later point the sum gains that point's addend. -/
theorem acc_next (f : ℕ → O3.Idx → EReal) (n : ℕ) (h : ¬(n + 1) % 8 = 0) :
    acc f (n + 1) = fun o => acc f n o + f (n + 1) o := by
  funext o
  have h1 : (n + 1) % 8 + 1 = (n % 8 + 1) + 1 := by omega
  have h2 : (n + 1) / 8 = n / 8 := by omega
  have h3 : 8 * (n / 8) + (n % 8 + 1) = n + 1 := by omega
  unfold acc
  rw [h1, h2, Finset.sum_range_succ, h3, add_assoc]

/-- At a core's last point the sum runs over its eight steps. -/
theorem acc_last (f : ℕ → O3.Idx → EReal) (n : ℕ) (h : n % 8 = 7) :
    acc f n = fun o => ∑ k : Fin 8, f (8 * (n / 8) + k.val) o := by
  funext o
  unfold acc
  rw [h, zero_add, Fin.sum_univ_eq_sum_range (fun k => f (8 * (n / 8) + k) o) 8]

/-! ## The windows' index maps and the input blocks -/

/-- The printed index maps over the grid: an input's block index at the point `t` is `(0, t, 0)`, an output's is
    `(⌊t / 8⌋, 0, 0)`. -/
theorem index_facts : ∀ t : Fin cfg0.N,
    (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 3) = t.val / 8 ∧ win0_3.index t (1 : Fin 3) = 0 ∧ win0_3.index t (2 : Fin 3) = 0)
    ∧ (win0_4.index t (0 : Fin 3) = t.val / 8 ∧ win0_4.index t (1 : Fin 3) = 0 ∧ win0_4.index t (2 : Fin 3) = 0) :=
  (by decide +kernel : ∀ t : Fin grid0.N, _)

/-- The three input blocks at a point, by their literal types. -/
abbrev xblk (c : Dev nD) (t : Fin cfg0.N) : Vec Ideal S4x3456x128 .f32 := iblk (F := Ideal) m c 0 t
abbrev tblk (c : Dev nD) (t : Fin cfg0.N) : Vec Ideal S4x3456x128 .f32 := iblk (F := Ideal) m c 1 t
abbrev mblk (c : Dev nD) (t : Fin cfg0.N) : Vec Ideal S4x3456x128 .i32 := iblk (F := Ideal) m c 2 t

/-- The first input's block at the point `t` is row block `t` of its array. -/
theorem xblk_eq (c : Dev nD) (t : Fin cfg0.N) (g : Fin 16) (hg : g.val = t.val) :
    xblk m c t = blockOf (V (F := Ideal) m c main_v0) g := by
  obtain ⟨⟨e0, e1, e2⟩, -⟩ := index_facts t
  funext y
  show iblk (F := Ideal) m c 0 t y = _
  unfold iblk blockOf
  rw [View.read_apply]
  show V m c main_v0 _ = V m c main_v0 _
  congr 1
  funext a
  apply Fin.ext
  match a with
  | ⟨0, _⟩ => show win0_0.index t (0 : Fin 3) * 4 + 1 * (y 0).val = (y 0).val; rw [e0]; omega
  | ⟨1, _⟩ => show win0_0.index t (1 : Fin 3) * 3456 + 1 * (y 1).val = g.val * 3456 + (y 1).val; rw [e1, hg]; omega
  | ⟨2, _⟩ => show win0_0.index t (2 : Fin 3) * 128 + 1 * (y 2).val = (y 2).val; rw [e2]; omega

/-- The second input's block at the point `t` is row block `t` of its array. -/
theorem tblk_eq (c : Dev nD) (t : Fin cfg0.N) (g : Fin 16) (hg : g.val = t.val) :
    tblk m c t = blockOf (V (F := Ideal) m c main_v1) g := by
  obtain ⟨-, ⟨e0, e1, e2⟩, -⟩ := index_facts t
  funext y
  show iblk (F := Ideal) m c 1 t y = _
  unfold iblk blockOf
  rw [View.read_apply]
  show V m c main_v1 _ = V m c main_v1 _
  congr 1
  funext a
  apply Fin.ext
  match a with
  | ⟨0, _⟩ => show win0_1.index t (0 : Fin 3) * 4 + 1 * (y 0).val = (y 0).val; rw [e0]; omega
  | ⟨1, _⟩ => show win0_1.index t (1 : Fin 3) * 3456 + 1 * (y 1).val = g.val * 3456 + (y 1).val; rw [e1, hg]; omega
  | ⟨2, _⟩ => show win0_1.index t (2 : Fin 3) * 128 + 1 * (y 2).val = (y 2).val; rw [e2]; omega

/-- The mask's block at the point `t` is row block `t` of its array. -/
theorem mblk_eq (c : Dev nD) (t : Fin cfg0.N) (g : Fin 16) (hg : g.val = t.val) :
    mblk m c t = blockOf (V (F := Ideal) m c main_v2) g := by
  obtain ⟨-, -, ⟨e0, e1, e2⟩, -⟩ := index_facts t
  funext y
  show iblk (F := Ideal) m c 2 t y = _
  unfold iblk blockOf
  rw [View.read_apply]
  show V m c main_v2 _ = V m c main_v2 _
  congr 1
  funext a
  apply Fin.ext
  match a with
  | ⟨0, _⟩ => show win0_2.index t (0 : Fin 3) * 4 + 1 * (y 0).val = (y 0).val; rw [e0]; omega
  | ⟨1, _⟩ => show win0_2.index t (1 : Fin 3) * 3456 + 1 * (y 1).val = g.val * 3456 + (y 1).val; rw [e1, hg]; omega
  | ⟨2, _⟩ => show win0_2.index t (2 : Fin 3) * 128 + 1 * (y 2).val = (y 2).val; rw [e2]; omega

/-! ## What the accumulators hold after each point -/

/-- What the point `n` adds to the sums accumulator, and to the counts accumulator. -/
def sAt (c : Dev nD) (n : ℕ) : O3.Idx → EReal := stepSum (xblk m c (pt n)) (tblk m c (pt n)) (mblk m c (pt n))
def cAt (c : Dev nD) (n : ℕ) : O3.Idx → EReal := stepCnt (mblk m c (pt n))

theorem sAt_mk (c : Dev nD) (n : ℕ) (h : n < cfg0.N) :
    sAt m c n = stepSum (xblk m c ⟨n, h⟩) (tblk m c ⟨n, h⟩) (mblk m c ⟨n, h⟩) := by
  unfold sAt; rw [pt_mk n h]
theorem cAt_mk (c : Dev nD) (n : ℕ) (h : n < cfg0.N) : cAt m c n = stepCnt (mblk m c ⟨n, h⟩) := by
  unfold cAt; rw [pt_mk n h]

/-- At a core's first point the two accumulators are reset and hold that point's addends. -/
theorem outs_first (c : Dev nD) (n : ℕ) (h : n < cfg0.N) (h0 : n % 8 = 0) :
    outsAt0 (F := Ideal) m c n h = (acc (sAt m c) n, acc (cAt m c) n) := by
  rw [outsAt0_A m c ⟨n, h⟩ h0,
    Step.first_sums c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr h0) (xblk m c ⟨n, h⟩) (tblk m c ⟨n, h⟩) (mblk m c ⟨n, h⟩),
    Step.first_cnts c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr h0) (xblk m c ⟨n, h⟩) (tblk m c ⟨n, h⟩) (mblk m c ⟨n, h⟩),
    acc_first _ n h0, acc_first _ n h0, sAt_mk m c n h, cAt_mk m c n h]

/-- After every point the accumulators hold the running sums of their core. -/
theorem outs_eq (c : Dev nD) (n : ℕ) : ∀ h : n < cfg0.N,
    outsAt0 (F := Ideal) m c n h = (acc (sAt m c) n, acc (cAt m c) n) := by
  induction n with
  | zero => exact fun h => outs_first m c 0 h rfl
  | succ n ih =>
    intro h
    by_cases h0 : (n + 1) % 8 = 0
    · exact outs_first m c (n + 1) h h0
    · rw [outsAt0_B m c ⟨n + 1, h⟩ h0]
      dsimp only
      rw [Step.next_sums c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hc => h0 ((hcond0_0 ⟨n + 1, h⟩).mp hc)) (xblk m c ⟨n + 1, h⟩) (tblk m c ⟨n + 1, h⟩) (mblk m c ⟨n + 1, h⟩)
          (outsAt0 (F := Ideal) m c (n + 1 - 1) (Nat.lt_of_le_of_lt (Nat.sub_le _ _) h)).1 (outsAt0 (F := Ideal) m c (n + 1 - 1) (Nat.lt_of_le_of_lt (Nat.sub_le _ _) h)).2,
        Step.next_cnts c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hc => h0 ((hcond0_0 ⟨n + 1, h⟩).mp hc)) (xblk m c ⟨n + 1, h⟩) (tblk m c ⟨n + 1, h⟩) (mblk m c ⟨n + 1, h⟩)
          (outsAt0 (F := Ideal) m c (n + 1 - 1) (Nat.lt_of_le_of_lt (Nat.sub_le _ _) h)).1 (outsAt0 (F := Ideal) m c (n + 1 - 1) (Nat.lt_of_le_of_lt (Nat.sub_le _ _) h)).2,
        acc_next _ n h0, acc_next _ n h0, sAt_mk m c (n + 1) h, cAt_mk m c (n + 1) h]
      show ((fun o => (outsAt0 (F := Ideal) m c n (Nat.lt_of_succ_lt h)).1 o + _), (fun o => (outsAt0 (F := Ideal) m c n (Nat.lt_of_succ_lt h)).2 o + _)) = _
      rw [ih (Nat.lt_of_succ_lt h)]

/-! ## What a core's last point writes back, and the arrays -/

/-- An index of a core's accumulator block is its batch entry and lane: the leading coordinate is always zero. -/
theorem o3_eq (j : O3.Idx) (b : Fin 4) (l : Fin 128) (h1 : b.val = (j 1).val) (h2 : l.val = (j 2).val) :
    j = ix3 (n0 := 1) (n1 := 4) (n2 := 128) 0 b l := by
  funext a
  match a with
  | ⟨0, _⟩ => exact Fin.ext (by have h : (j 0).val < 1 := (j 0).isLt; show (j 0).val = 0; omega)
  | ⟨1, _⟩ => exact Fin.ext h1.symm
  | ⟨2, _⟩ => exact Fin.ext h2.symm

/-- The eight addends of core `q`, read at the block index `j`, are the core's sums at the array index `i` over `j`. -/
theorem sums_at (c : Dev nD) (q : ℕ) (hq : q < 2) (j : O3.Idx) (i : R3.Idx)
    (h0 : (i 0).val = q) (h1 : (i 1).val = (j 1).val) (h2 : (i 2).val = (j 2).val) :
    ∑ k : Fin 8, sAt m c (8 * q + k.val) j
      = coreSums (V (F := Ideal) m c main_v0) (V (F := Ideal) m c main_v1) (V (F := Ideal) m c main_v2) i := by
  unfold coreSums
  refine Finset.sum_congr rfl fun k _ => ?_
  have hk : k.val < 8 := k.isLt
  have hg : (blockIx ⟨(i 0).val, (i 0).isLt⟩ k).val = (pt (8 * q + k.val)).val := by
    rw [pt_val _ (by omega)]; show (i 0).val * 8 + k.val = _; omega
  unfold sAt
  rw [xblk_eq m c _ _ hg, tblk_eq m c _ _ hg, mblk_eq m c _ _ hg]
  exact congrArg _ (o3_eq j _ _ h1 h2)

/-- The same for the counts. -/
theorem cnts_at (c : Dev nD) (q : ℕ) (hq : q < 2) (j : O3.Idx) (i : R3.Idx)
    (h0 : (i 0).val = q) (h1 : (i 1).val = (j 1).val) (h2 : (i 2).val = (j 2).val) :
    ∑ k : Fin 8, cAt m c (8 * q + k.val) j = coreCnts (V (F := Ideal) m c main_v2) i := by
  unfold coreCnts
  refine Finset.sum_congr rfl fun k _ => ?_
  have hk : k.val < 8 := k.isLt
  have hg : (blockIx ⟨(i 0).val, (i 0).isLt⟩ k).val = (pt (8 * q + k.val)).val := by
    rw [pt_val _ (by omega)]; show (i 0).val * 8 + k.val = _; omega
  unfold cAt
  rw [mblk_eq m c _ _ hg]
  exact congrArg _ (o3_eq j _ _ h1 h2)

/-- What a core's last point writes back to the sums array is the core's block of `coreSums`. -/
theorem sums_flushed (c : Dev nD) (t : Fin cfg0.N) (hf : (cfg0.win 3).flush t = true) :
    (dats (F := Ideal) m 0 c).flushed 3 t = ((cfg0.win 3).blk t).view.read (Elt Ideal)
      (coreSums (V (F := Ideal) m c main_v0) (V (F := Ideal) m c main_v1) (V (F := Ideal) m c main_v2)) := by
  have h7 : t.val % 8 = 7 := (flush0_3 t).mp hf
  have hN : t.val < 16 := lt_of_lt_of_eq t.isLt N16
  obtain ⟨-, -, -, ⟨e0, e1, e2⟩, -⟩ := index_facts t
  show (cfg0.win 3).cut (grid0.coords t) ((dats (F := Ideal) m 0 c).after 3 t) = _
  rw [after0_3, outs_eq m c t.val t.isLt]
  dsimp only
  rw [acc_last _ _ h7]
  funext j
  show ∑ k : Fin 8, sAt m c (8 * (t.val / 8) + k.val) j = coreSums _ _ _ (((cfg0.win 3).blk t).view.emb j)
  refine sums_at m c (t.val / 8) (by omega) j _ ?_ ?_ ?_
  · show win0_3.index t (0 : Fin 3) * 1 + 1 * (j 0).val = t.val / 8
    have h : (j 0).val < 1 := (j 0).isLt
    rw [e0]; omega
  · show win0_3.index t (1 : Fin 3) * 4 + 1 * (j 1).val = (j 1).val
    rw [e1]; omega
  · show win0_3.index t (2 : Fin 3) * 128 + 1 * (j 2).val = (j 2).val
    rw [e2]; omega

/-- What a core's last point writes back to the counts array is the core's block of `coreCnts`. -/
theorem cnts_flushed (c : Dev nD) (t : Fin cfg0.N) (hf : (cfg0.win 4).flush t = true) :
    (dats (F := Ideal) m 0 c).flushed 4 t = ((cfg0.win 4).blk t).view.read (Elt Ideal)
      (coreCnts (V (F := Ideal) m c main_v2)) := by
  have h7 : t.val % 8 = 7 := (flush0_4 t).mp hf
  have hN : t.val < 16 := lt_of_lt_of_eq t.isLt N16
  obtain ⟨-, -, -, -, ⟨e0, e1, e2⟩⟩ := index_facts t
  show (cfg0.win 4).cut (grid0.coords t) ((dats (F := Ideal) m 0 c).after 4 t) = _
  rw [after0_4, outs_eq m c t.val t.isLt]
  dsimp only
  rw [acc_last _ _ h7]
  funext j
  show ∑ k : Fin 8, cAt m c (8 * (t.val / 8) + k.val) j = coreCnts _ (((cfg0.win 4).blk t).view.emb j)
  refine cnts_at m c (t.val / 8) (by omega) j _ ?_ ?_ ?_
  · show win0_4.index t (0 : Fin 3) * 1 + 1 * (j 0).val = t.val / 8
    have h : (j 0).val < 1 := (j 0).isLt
    rw [e0]; omega
  · show win0_4.index t (1 : Fin 3) * 4 + 1 * (j 1).val = (j 1).val
    rw [e1]; omega
  · show win0_4.index t (2 : Fin 3) * 128 + 1 * (j 2).val = (j 2).val
    rw [e2]; omega

/-- An index of the sums array is in the block of the point `t` iff each coordinate is in the block's range. -/
theorem mem_blk3 (t : Fin cfg0.N) (i : S2x4x128.Idx) :
    i ∈ ((cfg0.win 3).blk t).view.set
      ↔ ∀ a : Fin 3, win0_3.index t a * S1x4x128.size a ≤ (i a).val ∧ (i a).val < win0_3.index t a * S1x4x128.size a + S1x4x128.size a := by
  show i ∈ ((View.whole main_v3_0).slice (win0_3.rect t)).set ↔ _
  rw [View.set_slice_whole, Rect.mem_set_unit]
  exact Iff.rfl

/-- The same for the counts array. -/
theorem mem_blk4 (t : Fin cfg0.N) (i : S2x4x128.Idx) :
    i ∈ ((cfg0.win 4).blk t).view.set
      ↔ ∀ a : Fin 3, win0_4.index t a * S1x4x128.size a ≤ (i a).val ∧ (i a).val < win0_4.index t a * S1x4x128.size a + S1x4x128.size a := by
  show i ∈ ((View.whole main_v3_1).slice (win0_4.rect t)).set ↔ _
  rw [View.set_slice_whole, Rect.mem_set_unit]
  exact Iff.rfl

/-- Every index of the sums array lies in the block its core's last point writes back. -/
theorem sums_cover (i : S2x4x128.Idx) :
    ∃ t : Fin cfg0.N, (cfg0.win 3).flush t = true ∧ i ∈ ((cfg0.win 3).blk t).view.set := by
  have h0 : (i 0).val < 2 := (i 0).isLt
  have h1 : (i 1).val < 4 := (i 1).isLt
  have h2 : (i 2).val < 128 := (i 2).isLt
  have ht : (pt (8 * (i 0).val + 7)).val = 8 * (i 0).val + 7 := pt_val _ (by omega)
  obtain ⟨-, -, -, ⟨e0, e1, e2⟩, -⟩ := index_facts (pt (8 * (i 0).val + 7))
  refine ⟨pt (8 * (i 0).val + 7), (flush0_3 _).mpr (by rw [ht]; omega), ?_⟩
  rw [mem_blk3]
  intro a
  match a with
  | ⟨0, _⟩ =>
    show win0_3.index (pt (8 * (i 0).val + 7)) (0 : Fin 3) * 1 ≤ (i 0).val
      ∧ (i 0).val < win0_3.index (pt (8 * (i 0).val + 7)) (0 : Fin 3) * 1 + 1
    rw [e0, ht]; omega
  | ⟨1, _⟩ =>
    show win0_3.index (pt (8 * (i 0).val + 7)) (1 : Fin 3) * 4 ≤ (i 1).val
      ∧ (i 1).val < win0_3.index (pt (8 * (i 0).val + 7)) (1 : Fin 3) * 4 + 4
    rw [e1]; omega
  | ⟨2, _⟩ =>
    show win0_3.index (pt (8 * (i 0).val + 7)) (2 : Fin 3) * 128 ≤ (i 2).val
      ∧ (i 2).val < win0_3.index (pt (8 * (i 0).val + 7)) (2 : Fin 3) * 128 + 128
    rw [e2]; omega

/-- Every index of the counts array lies in the block its core's last point writes back. -/
theorem cnts_cover (i : S2x4x128.Idx) :
    ∃ t : Fin cfg0.N, (cfg0.win 4).flush t = true ∧ i ∈ ((cfg0.win 4).blk t).view.set := by
  have h0 : (i 0).val < 2 := (i 0).isLt
  have h1 : (i 1).val < 4 := (i 1).isLt
  have h2 : (i 2).val < 128 := (i 2).isLt
  have ht : (pt (8 * (i 0).val + 7)).val = 8 * (i 0).val + 7 := pt_val _ (by omega)
  obtain ⟨-, -, -, -, ⟨e0, e1, e2⟩⟩ := index_facts (pt (8 * (i 0).val + 7))
  refine ⟨pt (8 * (i 0).val + 7), (flush0_4 _).mpr (by rw [ht]; omega), ?_⟩
  rw [mem_blk4]
  intro a
  match a with
  | ⟨0, _⟩ =>
    show win0_4.index (pt (8 * (i 0).val + 7)) (0 : Fin 3) * 1 ≤ (i 0).val
      ∧ (i 0).val < win0_4.index (pt (8 * (i 0).val + 7)) (0 : Fin 3) * 1 + 1
    rw [e0, ht]; omega
  | ⟨1, _⟩ =>
    show win0_4.index (pt (8 * (i 0).val + 7)) (1 : Fin 3) * 4 ≤ (i 1).val
      ∧ (i 1).val < win0_4.index (pt (8 * (i 0).val + 7)) (1 : Fin 3) * 4 + 4
    rw [e1]; omega
  | ⟨2, _⟩ =>
    show win0_4.index (pt (8 * (i 0).val + 7)) (2 : Fin 3) * 128 ≤ (i 2).val
      ∧ (i 2).val < win0_4.index (pt (8 * (i 0).val + 7)) (2 : Fin 3) * 128 + 128
    rw [e2]; omega

/-- The sums array after the region, from the three reshaped arguments as the region finds them. -/
theorem sums_array (c : Dev nD) :
    (dats (F := Ideal) m 0 c).arrAt 3 cfg0.N = coreSums (V m c main_v0) (V m c main_v1) (V m c main_v2) :=
  (dats (F := Ideal) m 0 c).arrAt_eq_of_cover 3
    (coreSums (V (F := Ideal) m c main_v0) (V (F := Ideal) m c main_v1) (V (F := Ideal) m c main_v2))
    (sums_flushed m c) sums_cover

/-- The counts array after the region. -/
theorem cnts_array (c : Dev nD) :
    (dats (F := Ideal) m 0 c).arrAt 4 cfg0.N = coreCnts (V m c main_v2) :=
  (dats (F := Ideal) m 0 c).arrAt_eq_of_cover 4 (coreCnts (V (F := Ideal) m c main_v2)) (cnts_flushed m c) cnts_cover

end Cert.MaskedMean.Arrays

end
-- ==== Proof.KerTail.lean ====
/-
  The kernel program's run, with its result named: the host reads each accumulator array as a 4 × 7 table
  (the two cores added onto zero, lanes 0 … 6), forms the quotient table with zero where the count is not
  positive, sums it and divides by 4.
-/
import proofs.«420671_j68152541053394_4_alg».proof.Proof.KerArray
import Idealize.ShloMosaic.Lib.StableHlo.Run
import Idealize.ShloMosaic.PureOps.Ideal.Laws
import Idealize.ShloMosaic.Lib.Pipeline.Value

noncomputable section

namespace Cert.MaskedMean.Tail

open Idealize.ShloMosaic Idealize.ShloMosaic.TcCoe Idealize.SL.Sem
open Cert.KernelIdeal Cert.KernelIdeal.Gen Cert.MaskedMean
open Idealize.ShloMosaic.ValueIdx

/-- The quotient table of a sums table by a counts table, zero where the count is not positive. -/
def guardedQuot (s c : P47.Idx → EReal) : P47.Idx → EReal :=
  fun p => if 0 < c p then Ideal.div (s p) (c p) else 0

/-- The host's sum over the core axis onto zero, kept on the lanes 0 … 6, is the lane table: the sum over the
    two cores is the two-term sum, and the slice at offset (0, 0) reads the same (batch entry, lane). -/
theorem slice_reduce_eq (A : S2x4x128.Idx → EReal) (h1 : S2x4x128.ReducesTo [0] S4x128) (hu : 0 < S_.numel)
    (h2 : S4x128.Slices ![0, 0] S4x7) :
    extractStridedSlice S4x7 ![0, 0]
      (Host.reduceAdd (F := Ideal) (φ := .f32) A (constant (F := Ideal) S_ .f32 0x00000000#32) h1 hu) h2
      = laneTable A := by
  funext p
  have hR : S2x4x128.Reduces [0] S4x128 := by decide
  refine (extractStridedSlice_apply ![0, 0] _ h2 p
    (ix2 (n0 := 4) (n1 := 128) ⟨(p 0).val, (p 0).isLt⟩
      ⟨(p 1).val, by have : (p 1).val < 7 := (p 1).isLt; omega⟩) ?_).trans ?_
  · intro a
    match a with
    | ⟨0, _⟩ => exact (Nat.zero_add _).symm
    | ⟨1, _⟩ => exact (Nat.zero_add _).symm
  · show Ideal.hostReduceAdd h1 A (Ideal.ofBits .f32 0x00000000#32) _ = _
    rw [Ideal.hostReduceAdd_single h1 hR, Ideal.ofBits_zero_f32]
    show (0 : EReal) + ∑ k : Fin 2, A (hR.lift _ k) = _
    rw [Fin.sum_univ_two]
    have hl : ∀ k : Fin 2,
        hR.lift (ix2 (n0 := 4) (n1 := 128) ⟨(p 0).val, (p 0).isLt⟩
          ⟨(p 1).val, by have : (p 1).val < 7 := (p 1).isLt; omega⟩) k
          = ix3 (n0 := 2) (n1 := 4) (n2 := 128) k ⟨(p 0).val, (p 0).isLt⟩
              ⟨(p 1).val, by have : (p 1).val < 7 := (p 1).isLt; omega⟩ := fun k => funext fun d => by
      match d with
      | ⟨0, _⟩ => exact Fin.ext rfl
      | ⟨1, _⟩ => exact Fin.ext rfl
      | ⟨2, _⟩ => exact Fin.ext rfl
    exact congrArg₂ (fun u v => (0 : EReal) + (A u + A v)) (hl 0) (hl 1)

/-- The select on "count above zero" between the quotient and zero is the guarded quotient. -/
theorem select_eq (S C : S4x7.Idx → EReal) (hb : S_.BroadcastsInDim S4x7 (![] : Fin 0 → Fin S4x7.rank)) :
    select (cmpf (F := Ideal) (φ := .f32) .ogt C (broadcastInDim S4x7 ![] hb (constant (F := Ideal) S_ .f32 0x00000000#32)))
      (Host.divf (F := Ideal) (φ := .f32) S C)
      (broadcastInDim S4x7 ![] hb (constant (F := Ideal) S_ .f32 0x00000000#32))
      = guardedQuot S C := by
  funext p
  have hz : broadcastInDim S4x7 ![] hb (constant (F := Ideal) S_ .f32 0x00000000#32) p = (0 : EReal) :=
    (broadcastInDim_apply ![] hb _ p ix0 (fun a => a.elim0)).trans Ideal.ofBits_zero_f32
  rw [select_apply, cmpf_apply, hz]
  show Scalar.select (Ideal.cmp .ogt (C p) 0) (Ideal.div (S p) (C p)) 0 = _
  unfold guardedQuot
  by_cases h : 0 < C p
  · rw [if_pos h]
    have : Ideal.cmp .ogt (C p) 0 = 1#1 := by unfold Ideal.cmp; simp [h]
    rw [this, select_one]
  · rw [if_neg h]
    have : Ideal.cmp .ogt (C p) 0 = 0#1 := by unfold Ideal.cmp; simp [h]
    rw [this, select_zero]

/-- The whole host tail over two accumulator arrays: the mean of means of the guarded quotient of their lane tables. -/
theorem tail_eq (A B : S2x4x128.Idx → EReal) (h1 : S2x4x128.ReducesTo [0] S4x128) (hu : 0 < S_.numel)
    (h2 : S4x128.Slices ![0, 0] S4x7) (hb : S_.BroadcastsInDim S4x7 (![] : Fin 0 → Fin S4x7.rank))
    (h3 : S4x7.ReducesTo [0, 1] S_) :
    Host.divf (F := Ideal) (φ := .f32)
      (Host.reduceAdd (F := Ideal) (φ := .f32)
        (select
          (cmpf (F := Ideal) (φ := .f32) .ogt
            (extractStridedSlice S4x7 ![0, 0]
              (Host.reduceAdd (F := Ideal) (φ := .f32) B (constant (F := Ideal) S_ .f32 0x00000000#32) h1 hu) h2)
            (broadcastInDim S4x7 ![] hb (constant (F := Ideal) S_ .f32 0x00000000#32)))
          (Host.divf (F := Ideal) (φ := .f32)
            (extractStridedSlice S4x7 ![0, 0]
              (Host.reduceAdd (F := Ideal) (φ := .f32) A (constant (F := Ideal) S_ .f32 0x00000000#32) h1 hu) h2)
            (extractStridedSlice S4x7 ![0, 0]
              (Host.reduceAdd (F := Ideal) (φ := .f32) B (constant (F := Ideal) S_ .f32 0x00000000#32) h1 hu) h2))
          (broadcastInDim S4x7 ![] hb (constant (F := Ideal) S_ .f32 0x00000000#32)))
        (constant (F := Ideal) S_ .f32 0x00000000#32) h3 hu)
      (constant (F := Ideal) S_ .f32 0x40800000#32)
      = meanOfMeans (guardedQuot (laneTable A) (laneTable B)) := by
  rw [slice_reduce_eq A h1 hu h2, slice_reduce_eq B h1 hu h2, select_eq _ _ hb]
  rfl

variable (m : (ℓ : Loc nD τ sig) → Buf (Elt Ideal) ℓ)

/-- The first argument as the region finds it: the launch contents reshaped. -/
theorem V_v0 (c : Dev nD) : (V m c main_v0 : S4x55296x128.Idx → EReal)
    = shapeCast S4x55296x128 (m ((c.tc : Thread nD τ).loc main_arg0)) shapeCasts_S4x1x192x192x192_S4x55296x128 := by
  show StableHlo.after hostOps0 (fun b => m (c, b)) (Proc.devRef .tc main_v0) = _
  after_results
  rfl

/-- The second argument as the region finds it. -/
theorem V_v1 (c : Dev nD) : (V m c main_v1 : S4x55296x128.Idx → EReal)
    = shapeCast S4x55296x128 (m ((c.tc : Thread nD τ).loc main_arg1)) shapeCasts_S4x1x192x192x192_S4x55296x128 := by
  show StableHlo.after hostOps0 (fun b => m (c, b)) (Proc.devRef .tc main_v1) = _
  after_results
  rfl

/-- The mask as the region finds it. -/
theorem V_v2 (c : Dev nD) : (V m c main_v2 : S4x55296x128.Idx → BitVec 32)
    = shapeCast S4x55296x128 (m ((c.tc : Thread nD τ).loc main_arg2)) shapeCasts_S4x1x192x192x192_S4x55296x128 := by
  show StableHlo.after hostOps0 (fun b => m (c, b)) (Proc.devRef .tc main_v2) = _
  after_results
  rfl

/-- The result buffer after the host operations that follow the region, from the two accumulator arrays the
    region leaves. -/
theorem tail_v13 (c : Dev nD) :
    Pipeline.afterTail₀ cfgs (dats (F := Ideal) m) 0 (V0 m) [hostOps1, hostOps1_1, hostOps1_2] c main_v13
      = meanOfMeans (guardedQuot
          (laneTable (coreSums (V m c main_v0) (V m c main_v1) (V m c main_v2)))
          (laneTable (coreCnts (V m c main_v2)))) := by
  unfold Pipeline.afterTail₀
  simp only [hostOps1, hostOps1_1, hostOps1_2, List.flatten_cons, List.flatten_nil, List.append_nil, List.cons_append,
    List.nil_append]
  after_results
  have e3 : Pipeline.withArrays (cfgs 0).spec c (V0 m c) (fun w => (dats (F := Ideal) m 0 c).arrAt w (cfgs 0).N)
      (Proc.devRef .tc main_v3_0) = coreSums (V m c main_v0) (V m c main_v1) (V m c main_v2) :=
    (Pipeline.withArrays_arr spec0 launch0.win.arr_inj c _ _ 3).trans (Arrays.sums_array m c)
  have e4 : Pipeline.withArrays (cfgs 0).spec c (V0 m c) (fun w => (dats (F := Ideal) m 0 c).arrAt w (cfgs 0).N)
      (Proc.devRef .tc main_v3_1) = coreCnts (V m c main_v2) :=
    (Pipeline.withArrays_arr spec0 launch0.win.arr_inj c _ _ 4).trans (Arrays.cnts_array m c)
  rw [e3, e4]
  exact tail_eq _ _ _ _ _ _ _

/-- Every weakly fair execution of the kernel program ends with its result at the guarded mean of means of
    the blockwise tables of the reshaped arguments, the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v13)
        = meanOfMeans (guardedQuot
            (laneTable (coreSums
              (shapeCast S4x55296x128 (m ((c.tc : Thread nD τ).loc main_arg0)) Cert.KernelIdeal.Gen.shapeCasts_S4x1x192x192x192_S4x55296x128)
              (shapeCast S4x55296x128 (m ((c.tc : Thread nD τ).loc main_arg1)) Cert.KernelIdeal.Gen.shapeCasts_S4x1x192x192x192_S4x55296x128)
              (shapeCast S4x55296x128 (m ((c.tc : Thread nD τ).loc main_arg2)) Cert.KernelIdeal.Gen.shapeCasts_S4x1x192x192x192_S4x55296x128)))
            (laneTable (coreCnts
              (shapeCast S4x55296x128 (m ((c.tc : Thread nD τ).loc main_arg2)) Cert.KernelIdeal.Gen.shapeCasts_S4x1x192x192x192_S4x55296x128))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v13 (Pipeline.mem_restRefs_of main_v13 (by decide) (by decide))).trans
        ((tail_v13 m c).trans (by rw [V_v0 m c, V_v1 m c, V_v2 m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.MaskedMean.Tail

end
-- ==== Proof.Reindex.lean ====
/-
  The kernel's blockwise sums are the per-label sums: a reshape keeps the batch entry and the row-major
  position, the sixteen row blocks of 3456 rows tile the 55296 rows, and a product with the 0/1 label test
  is the term where the test holds and zero elsewhere.
-/
import proofs.«420671_j68152541053394_4_alg».proof.Proof.Blocks
import Idealize.ShloMosaic.Lib.Pipeline.Value

noncomputable section

namespace Cert.MaskedMean

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Row r of the block that core c takes at its step n is row (8c + n)·3456 + r of the array; every
    row below 55296 is such a row in exactly one way (quotient and remainder by 3456, then by 8). -/
def rowEquiv : Fin 2 × Fin 8 × Fin 3456 ≃ Fin 55296 where
  toFun q := ⟨(q.1.val * 8 + q.2.1.val) * 3456 + q.2.2.val, by
    have hc := q.1.isLt; have hn := q.2.1.isLt; have hr := q.2.2.isLt; omega⟩
  invFun R := (⟨R.val / 27648, by have hR := R.isLt; omega⟩, ⟨(R.val / 3456) % 8, by omega⟩,
    ⟨R.val % 3456, by omega⟩)
  left_inv q := by
    obtain ⟨c, n, r⟩ := q
    have hc := c.isLt; have hn := n.isLt; have hr := r.isLt
    refine Prod.ext (Fin.ext ?_) (Prod.ext (Fin.ext ?_) (Fin.ext ?_))
    · show ((c.val * 8 + n.val) * 3456 + r.val) / 27648 = c.val; omega
    · show (((c.val * 8 + n.val) * 3456 + r.val) / 3456) % 8 = n.val; omega
    · show ((c.val * 8 + n.val) * 3456 + r.val) % 3456 = r.val; omega
  right_inv R := by
    have hR := R.isLt
    refine Fin.ext ?_
    show ((R.val / 27648) * 8 + (R.val / 3456) % 8) * 3456 + R.val % 3456 = R.val
    omega

/-- The sum over one batch entry of the reshaped array, walked as the kernel walks it: cores, steps, rows
    of the block, lanes. -/
theorem sum_entry (f : A3.Idx → EReal) (b : Fin 4) :
    (∑ k : A3.Idx, if (k 0).val = b.val then f k else 0)
      = ∑ c : Fin 2, ∑ n : Fin 8, ∑ r : Fin 3456, ∑ l : Fin 128,
          f (ix3 (n0 := 4) (n1 := 55296) (n2 := 128) b (rowEquiv (c, n, r)) l) := by
  rw [sum_idx3, Finset.sum_eq_single b]
  · rw [← Equiv.sum_comp rowEquiv, Fintype.sum_prod_type]
    refine Finset.sum_congr rfl fun c _ => ?_
    rw [Fintype.sum_prod_type]
    refine Finset.sum_congr rfl fun n _ => Finset.sum_congr rfl fun r _ => Finset.sum_congr rfl fun l _ => ?_
    exact if_pos rfl
  · intro b' _ hb
    have hne : ¬ b'.val = b.val := fun e => hb (Fin.ext e)
    refine Finset.sum_eq_zero fun R _ => Finset.sum_eq_zero fun l _ => ?_
    exact if_neg hne
  · intro hb
    exact absurd (Finset.mem_univ b) hb

/-- A reshape of the rank-5 array to 4 × 55296 × 128 keeps the batch entry: both indices have the same
    row-major position, and each batch entry holds 7077888 = 192³ = 55296 · 128 consecutive positions. -/
theorem reshape_entry (h : V5.ShapeCasts A3) (k : A3.Idx) :
    ((Shape.reshapeEquiv h k) 0).val = (k 0).val := by
  have e := Shape.rowMajor_reshapeEquiv h k
  rw [Shape.rowMajor_val_five, Shape.rowMajor_val_three] at e
  generalize Shape.reshapeEquiv h k = v at e ⊢
  have v0 : (v 0).val < 4 := (v 0).isLt
  have v1 : (v 1).val < 1 := (v 1).isLt
  have v2 : (v 2).val < 192 := (v 2).isLt
  have v3 : (v 3).val < 192 := (v 3).isLt
  have v4 : (v 4).val < 192 := (v 4).isLt
  have k0 : (k 0).val < 4 := (k 0).isLt
  have k1 : (k 1).val < 55296 := (k 1).isLt
  have k2 : (k 2).val < 128 := (k 2).isLt
  have e' : (((((v 0).val * 1 + (v 1).val) * 192 + (v 2).val) * 192 + (v 3).val) * 192 + (v 4).val
      = ((k 0).val * 55296 + (k 1).val) * 128 + (k 2).val) := e
  omega

/-- The voxel test, read at an index of the reshaped arrays. -/
theorem hit_iff (mk : V5.Idx → BitVec 32) (h : V5.ShapeCasts A3) (p : P47.Idx) (k : A3.Idx) :
    Hit mk p (Shape.reshapeEquiv h k)
      ↔ ((k 0).val = (p 0).val ∧ mk (Shape.reshapeEquiv h k) = BitVec.ofNat 32 ((p 1).val + 1)) := by
  unfold Hit
  rw [reshape_entry h k]

/-- The squared difference times the label test, at an index of the reshaped arrays. -/
def term (X T : A3.Idx → EReal) (M : A3.Idx → BitVec 32) (a : ℕ) (k : A3.Idx) : EReal :=
  ((X k - T k) * (X k - T k)) * ind (M k) a

/-- A voxel's term of the per-label sum, read at the reshaped arrays: the batch-entry test stays a test, the
    label test becomes the factor 1 or 0. -/
theorem hit_term (x t : V5.Idx → EReal) (mk : V5.Idx → BitVec 32) (h : V5.ShapeCasts A3) (p : P47.Idx) (k : A3.Idx) :
    (if Hit mk p (Shape.reshapeEquiv h k) then sq x t (Shape.reshapeEquiv h k) else 0)
      = if (k 0).val = (p 0).val then
          term (shapeCast A3 x h) (shapeCast A3 t h) (shapeCast A3 mk h) ((p 1).val + 1) k
        else 0 := by
  have hH := hit_iff mk h p k
  unfold sq term ind shapeCast
  by_cases h1 : (k 0).val = (p 0).val
  · by_cases h2 : mk (Shape.reshapeEquiv h k) = BitVec.ofNat 32 ((p 1).val + 1)
    · rw [if_pos (hH.mpr ⟨h1, h2⟩), if_pos h1, if_pos h2, mul_one]
    · rw [if_neg (fun hh => h2 (hH.mp hh).2), if_pos h1, if_neg h2, mul_zero]
  · rw [if_neg (fun hh => h1 (hH.mp hh).1), if_neg h1]

/-- The same for the counts: the term is the label test itself. -/
theorem hit_one (mk : V5.Idx → BitVec 32) (h : V5.ShapeCasts A3) (p : P47.Idx) (k : A3.Idx) :
    (if Hit mk p (Shape.reshapeEquiv h k) then (1 : EReal) else 0)
      = if (k 0).val = (p 0).val then ind (shapeCast A3 mk h k) ((p 1).val + 1) else 0 := by
  have hH := hit_iff mk h p k
  unfold ind shapeCast
  by_cases h1 : (k 0).val = (p 0).val
  · by_cases h2 : mk (Shape.reshapeEquiv h k) = BitVec.ofNat 32 ((p 1).val + 1)
    · rw [if_pos (hH.mpr ⟨h1, h2⟩), if_pos h1, if_pos h2]
    · rw [if_neg (fun hh => h2 (hH.mp hh).2), if_pos h1, if_neg h2]
  · rw [if_neg (fun hh => h1 (hH.mp hh).1), if_neg h1]

/-- One step's contribution on a label lane, as a sum over the rows and lanes of the whole array's index. -/
theorem stepSum_block (X T : A3.Idx → EReal) (M : A3.Idx → BitVec 32) (c : Fin 2) (n : Fin 8) (b : Fin 4)
    (j : Fin 128) (hj : j.val < 7) :
    stepSum (blockOf X (blockIx c n)) (blockOf T (blockIx c n)) (blockOf M (blockIx c n))
        (ix3 (n0 := 1) (n1 := 4) (n2 := 128) 0 b j)
      = ∑ r : Fin 3456, ∑ l : Fin 128,
          term X T M (j.val + 1) (ix3 (n0 := 4) (n1 := 55296) (n2 := 128) b (rowEquiv (c, n, r)) l) := by
  unfold stepSum
  rw [if_pos (show ((ix3 (n0 := 1) (n1 := 4) (n2 := 128) 0 b j) 2).val < 7 from hj)]
  rfl

theorem stepCnt_block (M : A3.Idx → BitVec 32) (c : Fin 2) (n : Fin 8) (b : Fin 4)
    (j : Fin 128) (hj : j.val < 7) :
    stepCnt (blockOf M (blockIx c n)) (ix3 (n0 := 1) (n1 := 4) (n2 := 128) 0 b j)
      = ∑ r : Fin 3456, ∑ l : Fin 128,
          ind (M (ix3 (n0 := 4) (n1 := 55296) (n2 := 128) b (rowEquiv (c, n, r)) l)) (j.val + 1) := by
  unfold stepCnt
  rw [if_pos (show ((ix3 (n0 := 1) (n1 := 4) (n2 := 128) 0 b j) 2).val < 7 from hj)]
  rfl

/-- The host's table of the kernel's sums, over the reshaped arguments, is `segSum`. -/
theorem laneTable_coreSums (x t : V5.Idx → EReal) (mk : V5.Idx → BitVec 32) (h : V5.ShapeCasts A3) :
    laneTable (coreSums (shapeCast A3 x h) (shapeCast A3 t h) (shapeCast A3 mk h)) = segSum x t mk := by
  funext p
  have hj : (p 1).val < 7 := (p 1).isLt
  have hj' : (p 1).val < 128 := by omega
  have hR : segSum x t mk p
      = ∑ c : Fin 2, ∑ n : Fin 8, ∑ r : Fin 3456, ∑ l : Fin 128,
          term (shapeCast A3 x h) (shapeCast A3 t h) (shapeCast A3 mk h) ((p 1).val + 1)
            (ix3 (n0 := 4) (n1 := 55296) (n2 := 128) ⟨(p 0).val, (p 0).isLt⟩ (rowEquiv (c, n, r)) l) := by
    unfold segSum
    rw [← Equiv.sum_comp (Shape.reshapeEquiv h)]
    rw [Finset.sum_congr rfl fun k _ => hit_term x t mk h p k]
    exact sum_entry _ ⟨(p 0).val, (p 0).isLt⟩
  rw [hR, Fin.sum_univ_two]
  unfold laneTable coreSums
  rw [zero_add]
  congr 1
  · exact Finset.sum_congr rfl fun n _ => stepSum_block _ _ _ 0 n ⟨(p 0).val, (p 0).isLt⟩ ⟨(p 1).val, hj'⟩ hj
  · exact Finset.sum_congr rfl fun n _ => stepSum_block _ _ _ 1 n ⟨(p 0).val, (p 0).isLt⟩ ⟨(p 1).val, hj'⟩ hj

/-- The host's table of the kernel's counts, over the reshaped mask, is `segCnt`. -/
theorem laneTable_coreCnts (mk : V5.Idx → BitVec 32) (h : V5.ShapeCasts A3) :
    laneTable (coreCnts (shapeCast A3 mk h)) = segCnt mk := by
  funext p
  have hj : (p 1).val < 7 := (p 1).isLt
  have hj' : (p 1).val < 128 := by omega
  have hR : segCnt mk p
      = ∑ c : Fin 2, ∑ n : Fin 8, ∑ r : Fin 3456, ∑ l : Fin 128,
          ind (shapeCast A3 mk h
            (ix3 (n0 := 4) (n1 := 55296) (n2 := 128) ⟨(p 0).val, (p 0).isLt⟩ (rowEquiv (c, n, r)) l)) ((p 1).val + 1) := by
    unfold segCnt
    rw [← Equiv.sum_comp (Shape.reshapeEquiv h)]
    rw [Finset.sum_congr rfl fun k _ => hit_one mk h p k]
    exact sum_entry (fun k => ind (shapeCast A3 mk h k) ((p 1).val + 1)) ⟨(p 0).val, (p 0).isLt⟩
  rw [hR, Fin.sum_univ_two]
  unfold laneTable coreCnts
  rw [zero_add]
  congr 1
  · exact Finset.sum_congr rfl fun n _ => stepCnt_block _ 0 n ⟨(p 0).val, (p 0).isLt⟩ ⟨(p 1).val, hj'⟩ hj
  · exact Finset.sum_congr rfl fun n _ => stepCnt_block _ 1 n ⟨(p 0).val, (p 0).isLt⟩ ⟨(p 1).val, hj'⟩ hj

end Cert.MaskedMean

end
-- ==== Proof.PreDecode.lean ====
/-
  What the precondition says of the mask: every word is a label below 8, and every foreground label occurs in
  every batch entry.

  The precondition is a conjunction of one-bit words.  Two of them say that every mask word, read signed, is at
  least 0 and below 8; such a word is, read unsigned, below 8.  Seven of them say, one for each label a = 1 … 7,
  that for every batch entry the OR over the entry's voxels of the bit "the word is a" is set; an OR-fold from a
  clear bit that comes out set met a set bit, so some voxel of that entry carries the label.
-/
import proofs.«420671_j68152541053394_4_alg».proof.Pre_finite_inputs
import proofs.«420671_j68152541053394_4_alg».proof.Proof.Spec
import Idealize.ShloMosaic.Lib.ReduceAll
import Idealize.ShloMosaic.Lib.StableHlo.Predicate

noncomputable section

namespace Cert.MaskedMean

open Idealize.ShloMosaic

/-- A left fold by `or` over one-bit words that came out 1 either started at 1 or met a 1. -/
theorem foldl_ori_eq_one {ι : Type} (f : ι → BitVec 1) :
    ∀ (l : List ι) (init : BitVec 1), l.foldl (fun r n => IntOp.ori r (f n)) init = 1#1 →
      init = 1#1 ∨ ∃ n ∈ l, f n = 1#1
  | [], _, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

/-- A reduction by `or` from a clear bit that is 1 at `j` had a 1 at some operand index that reduces into `j`. -/
theorem reduce_ori_eq_one {s t u : Shape} {axes : List (Fin s.rank)} (x : s.Idx → BitVec 1) (init : u.Idx → BitVec 1)
    (h : s.ReducesTo axes t) (hu : 0 < u.numel) (j : t.Idx) (hinit : init (Shape.Idx.first hu) = 0#1)
    (e : Host.reduce IntOp.ori x init h hu j = 1#1) : ∃ i : s.Idx, h.drop i = j ∧ x i = 1#1 := by
  rw [Host.reduce_eq_foldl] at e
  rcases foldl_ori_eq_one x _ _ e with h1 | ⟨n, hn, hf⟩
  · rw [hinit] at h1; exact absurd h1 (by decide)
  · rw [List.mem_filter] at hn
    exact ⟨n, by simpa using hn.2, hf⟩

/-- The rank-0 shape has one index. -/
instance subsingleton_scalar_idx : Subsingleton Cert.Pre_finite_inputs.S_.Idx :=
  ⟨fun _ _ => funext fun d => d.elim0⟩

/-- A 32-bit word that is, read signed, at least 0 and below 8 is, read unsigned, below 8. -/
theorem toNat_lt_eight {w : BitVec 32} (h0 : IntOp.cmpi .sge w 0#32 = 1#1) (h8 : IntOp.cmpi .slt w 8#32 = 1#1) :
    w.toNat < 8 := by
  rw [IntOp.cmpi_sge] at h0
  rw [IntOp.cmpi_slt] at h8
  have e0 : (0#32 : BitVec 32).toInt = 0 := by decide
  have e8 : (8#32 : BitVec 32).toInt = 8 := by decide
  rw [e0] at h0
  rw [e8] at h8
  have hc := BitVec.toInt_eq_toNat_cond w
  have hl := w.isLt
  split at hc <;> omega

/-- "Every batch entry has a voxel whose word is `a`", read off the conjunct of label `a`: the AND over the batch
    entries of the OR over each entry's voxels of the bit "the word is `a`". -/
theorem any_label [Cert.Pre_finite_inputs.Facts] (mk : V5.Idx → BitVec 32) (a : BitVec 32)
    (e : Host.reduce IntOp.andi
          (Host.reduce IntOp.ori
            (cmpi CmpIPredicate.eq mk
              (broadcastInDim Cert.Pre_finite_inputs.S4x1x192x192x192 ![]
                Cert.Pre_finite_inputs.Facts.bcast_S_S4x1x192x192x192 (constantI Cert.Pre_finite_inputs.S_ 32 a)))
            (constantI Cert.Pre_finite_inputs.S_ 1 0#1)
            Cert.Pre_finite_inputs.Facts.reducesTo_S4x1x192x192x192_S4_d1_2_3_4 Cert.Pre_finite_inputs.Facts.h_S_)
          (constantI Cert.Pre_finite_inputs.S_ 1 1#1)
          Cert.Pre_finite_inputs.Facts.reducesTo_S4_S_d0 Cert.Pre_finite_inputs.Facts.h_S_ ValueIdx.ix0 = 1#1)
    (b : Fin 4) : ∃ v : V5.Idx, (v 0).val = b.val ∧ mk v = a := by
  -- the AND over the batch entries: the OR of entry `b` is set
  have h1 := Host.reduce_andi_all _ _ _ _ _ e (ValueIdx.ix1 b)
  -- so one of the voxels reducing into entry `b` has its bit set
  obtain ⟨v, hv, hx⟩ := reduce_ori_eq_one _ _ _ _ _ rfl h1
  have hx' : IntOp.cmpi .eq (mk v) a = 1#1 := hx
  refine ⟨v, ?_, IntOp.cmpi_eq.1 hx'⟩
  -- a voxel reduces into the entry that is its first coordinate
  have hd := Shape.ReducesTo.drop_apply_val_of_eq
    Cert.Pre_finite_inputs.Facts.reducesTo_S4x1x192x192x192_S4_d1_2_3_4 v 0 0
  rw [hv] at hd
  exact hd.symm

theorem labels_of_pre [Cert.Pre_finite_inputs.Facts] (x t : V5.Idx → EReal) (mk : V5.Idx → BitVec 32)
    (h : Cert.Pre_finite_inputs.fn (F := Ideal) x t mk = fun _ => 1#1) :
    (∀ v, (mk v).toNat < 8) ∧ (∀ p : P47.Idx, ∃ v, Hit mk p v) := by
  have h0 := congrFun h ValueIdx.ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨-, -⟩, hge⟩, hlt⟩, e1⟩, e2⟩, e3⟩, e4⟩, e5⟩, e6⟩, e7⟩ := h0
  refine ⟨fun v => ?_, fun p => ?_⟩
  · -- the two range conjuncts at the voxel
    have h1 : IntOp.cmpi .sge (mk v) 0#32 = 1#1 := Host.reduce_andi_all _ _ _ _ _ hge v
    have h2 : IntOp.cmpi .slt (mk v) 8#32 = 1#1 := Host.reduce_andi_all _ _ _ _ _ hlt v
    exact toNat_lt_eight h1 h2
  · -- the conjunct of the label `p 1 + 1` at the batch entry `p 0`
    unfold Hit
    have hp1 : (p 1).val < 7 := (p 1).isLt
    generalize (p 1).val = q at hp1
    obtain rfl | rfl | rfl | rfl | rfl | rfl | rfl :
        q = 0 ∨ q = 1 ∨ q = 2 ∨ q = 3 ∨ q = 4 ∨ q = 5 ∨ q = 6 := by omega
    · exact any_label mk 1#32 e1 (p 0)
    · exact any_label mk 2#32 e2 (p 0)
    · exact any_label mk 3#32 e3 (p 0)
    · exact any_label mk 4#32 e4 (p 0)
    · exact any_label mk 5#32 e5 (p 0)
    · exact any_label mk 6#32 e6 (p 0)
    · exact any_label mk 7#32 e7 (p 0)

end Cert.MaskedMean

end
-- ==== Proof.RefValue.lean ====
/-
  The reference's segmented sums are the per-label sums: with labels below 8 the segment id `8 b + label`
  of a voxel of batch entry `b` names (b, label) and no other pair, so the scatter's sum at segment
  `8 b + (j + 1)` runs over exactly the voxels of entry `b` with label `j + 1`.

  The steps.  The scatter has one index column and no window axes, so an update lands on segment `i`
  exactly when its index word, read as a signed integer, is `i` (`lands_iff`).  The index word of flat
  position `k` is `8 · (batch entry of k) + (mask word of the voxel k names)` as 32-bit words (`segId`);
  flattening [4,1,192,192,192] to [4,7077888] to [28311552] keeps the batch entry (`vox_batch`), and with
  the batch entry below 4 and the mask word below 8 the word arithmetic does not wrap (`seg_iff`).  The
  sum over flat positions is then re-indexed over voxels through the bijection `vox` between them.
-/
import proofs.«420671_j68152541053394_4_alg».proof.Proof.Gen.ReferenceIdeal.Read
import proofs.«420671_j68152541053394_4_alg».proof.Proof.Spec
import Idealize.ShloMosaic.Lib.IdealHost

noncomputable section

namespace Cert.MaskedMean.Ref

open Idealize.ShloMosaic Idealize.ShloMosaic.TcCoe Idealize.SL.Sem
open Cert.ReferenceIdeal Cert.ReferenceIdeal.Gen Cert.MaskedMean

/-- The row of the index column an update reads. -/
def col (j : S28311552.Idx) : S28311552x1.Idx := fun a => match a with
  | ⟨0, _⟩ => ⟨(j 0).val, (j 0).isLt⟩
  | ⟨1, _⟩ => ⟨0, Nat.one_pos⟩

/-- Every component of an update's start index is read at that row of the column. -/
theorem siIdx_eq (j : S28311552.Idx) (c : Fin scatter_S32_S28311552x1_S28311552_n_0_0_1.scatterDimsToOperandDims.length) :
    scatter_S32_S28311552x1_S28311552_n_0_0_1.siIdx j c = col j := by
  funext b
  match b with
  | ⟨0, _⟩ => apply Fin.ext; rfl
  | ⟨1, _⟩ =>
    apply Fin.ext
    have hc : c.val < 1 := c.isLt
    show c.val = 0
    omega

/-- The window's start on the one operand axis is the index word read signed. -/
theorem start_eq (idx : IVec S28311552x1 32) (j : S28311552.Idx) (a : Fin S32.rank) :
    scatter_S32_S28311552x1_S28311552_n_0_0_1.start j idx a = (idx (col j)).toInt := by
  have ha : a = 0 := Subsingleton.elim _ _
  subst ha
  unfold ScatterDims.start
  rw [dif_pos (by decide)]
  rw [siIdx_eq]

/-- The scatter has no window axes: the window coordinate is zero. -/
theorem window_eq (j : S28311552.Idx) (a : Fin S32.rank) :
    scatter_S32_S28311552x1_S28311552_n_0_0_1.window j a = 0 := by
  have ha : a = 0 := Subsingleton.elim _ _
  subst ha
  unfold ScatterDims.window
  rw [dif_neg (by decide)]

/-- An update lands on segment `i` exactly when its index word, read signed, is `i`. -/
theorem lands_iff (idx : IVec S28311552x1 32) (j : S28311552.Idx) (i : S32.Idx) :
    scatter_S32_S28311552x1_S28311552_n_0_0_1.resultIdx? j idx = some i ↔ (idx (col j)).toInt = ((i 0).val : Int) := by
  unfold ScatterDims.resultIdx?
  have hi : (i 0).val < 32 := (i 0).isLt
  split
  · rename_i h
    constructor
    · intro he
      have h1 := congrFun (Option.some.inj he) 0
      have h2 := congrArg Fin.val h1
      simp only [start_eq, window_eq] at h2 h
      have h3 := (h 0).1
      omega
    · intro he
      congr 1
      funext a
      have ha : a = 0 := Subsingleton.elim _ _
      subst ha
      apply Fin.ext
      simp only [start_eq, window_eq]
      omega
  · rename_i h
    constructor
    · intro he; cases he
    · intro he
      exfalso
      apply h
      intro a
      have ha : a = 0 := Subsingleton.elim _ _
      subst ha
      rw [start_eq, window_eq]
      show 0 ≤ (idx (col j)).toInt + ((0 : Nat) : Int) ∧ (idx (col j)).toInt + ((0 : Nat) : Int) < ((32 : Nat) : Int)
      omega

/-- The voxel a flat position names. -/
def vox : S28311552.Idx ≃ V5.Idx :=
  (Shape.reshapeEquiv shapeCasts_S4x7077888_S28311552).trans (Shape.reshapeEquiv shapeCasts_S4x1x192x192x192_S4x7077888)

/-- Flattening the four trailing axes keeps the batch entry. -/
theorem vox_batch (j : S28311552.Idx) : ((vox j) 0).val = ((Shape.reshapeEquiv shapeCasts_S4x7077888_S28311552 j) 0).val := by
  show ((Shape.reshapeEquiv shapeCasts_S4x1x192x192x192_S4x7077888 (Shape.reshapeEquiv shapeCasts_S4x7077888_S28311552 j)) 0).val = _
  generalize Shape.reshapeEquiv shapeCasts_S4x7077888_S28311552 j = i
  have e := Shape.rowMajor_reshapeEquiv shapeCasts_S4x1x192x192x192_S4x7077888 i
  rw [Shape.rowMajor_val_five, Shape.rowMajor_val_two] at e
  generalize Shape.reshapeEquiv shapeCasts_S4x1x192x192x192_S4x7077888 i = v at e ⊢
  have h0 : (v 0).val < 4 := (v 0).isLt
  have h1 : (v 1).val < 1 := (v 1).isLt
  have h2 : (v 2).val < 192 := (v 2).isLt
  have h3 : (v 3).val < 192 := (v 3).isLt
  have h4 : (v 4).val < 192 := (v 4).isLt
  have g0 : (i 0).val < 4 := (i 0).isLt
  have g1 : (i 1).val < 7077888 := (i 1).isLt
  have e' : ((((v 0).val * 1 + (v 1).val) * 192 + (v 2).val) * 192 + (v 3).val) * 192 + (v 4).val
      = (i 0).val * 7077888 + (i 1).val := e
  omega

/-- The segment id of a flat position: eight times the batch entry plus the mask word, as 32-bit words. -/
theorem segId (mk : V5.Idx → BitVec 32) (j : S28311552.Idx) :
    Read.val_main_v13 (F := Ideal) mk (col j)
      = BitVec.ofNat 32 ((vox j) 0).val * 8#32 + mk (vox j) := by
  rw [Read.val_main_v13_apply]
  have hj : Read.idx_main_v13 (col j) = j := funext fun a => match a with | ⟨0, _⟩ => rfl
  rw [hj]
  show Read.val_main_v9 (F := Ideal) mk (Shape.reshapeEquiv shapeCasts_S4x7077888_S28311552 j) = _
  rw [Read.val_main_v9_apply, Read.val_main_v8_apply, Read.val_main_v7_apply, Read.val_main_v5_apply,
    Read.val_main_v6_apply, Read.val_main_v4_apply, Read.val_main_c_apply, vox_batch]
  rfl

/-- With the batch entry below 4 and the mask word below 8 nothing wraps, and the segment id
    `8 b + m` equals `8 p₀ + (p₁ + 1)` exactly when `b = p₀` and `m = p₁ + 1`. -/
theorem seg_iff (b p0 p1 : Nat) (m : BitVec 32) (hb : b < 4) (hp0 : p0 < 4) (hp1 : p1 < 7) (hm : m.toNat < 8) :
    (BitVec.ofNat 32 b * 8#32 + m).toInt = ((p0 * 8 + (1 + p1) : Nat) : Int)
      ↔ (b = p0 ∧ m = BitVec.ofNat 32 (p1 + 1)) := by
  have e := BitVec.toInt_eq_toNat_cond (BitVec.ofNat 32 b * 8#32 + m)
  have hn : (BitVec.ofNat 32 b * 8#32 + m).toNat = 8 * b + m.toNat := by
    rw [BitVec.toNat_add, BitVec.toNat_mul, BitVec.toNat_ofNat]
    show ((b % 2 ^ 32) * 8 % 2 ^ 32 + m.toNat) % 2 ^ 32 = _
    omega
  have hm' : m = BitVec.ofNat 32 (p1 + 1) ↔ m.toNat = p1 + 1 := by
    rw [← BitVec.toNat_inj, BitVec.toNat_ofNat]
    omega
  rw [hm']
  rw [hn] at e
  omega

/-- The update at a flat position is the squared difference at its voxel. -/
theorem upd_eq (x t : V5.Idx → EReal) (j : S28311552.Idx) :
    Read.val_main_v11 (F := Ideal) x t j = sq x t (vox j) := by
  unfold Read.val_main_v11 Read.val_main_v2
  unfold shapeCast
  show Read.val_main_v1 (F := Ideal) x t (vox j) = _
  rw [Read.val_main_v1_apply, Read.val_main_v0_apply]
  rfl

/-- The segment a table entry reads. -/
theorem seg_of (p : P47.Idx) : ((Read.idx_main_v20 (Read.idx_main_v22 p)) 0).val = (p 0).val * 8 + (1 + (p 1).val) := rfl

/-- One flat position's term of the segment sum is the voxel's term of the per-label sum. -/
theorem term_iff (mk : V5.Idx → BitVec 32) (hlab : ∀ v, (mk v).toNat < 8) (p : P47.Idx) (j : S28311552.Idx) :
    scatter_S32_S28311552x1_S28311552_n_0_0_1.resultIdx? j (Read.val_main_v13 (F := Ideal) mk)
        = some (Read.idx_main_v20 (Read.idx_main_v22 p)) ↔ Hit mk p (vox j) := by
  rw [lands_iff, segId, seg_of]
  exact seg_iff _ _ _ _ ((vox j) 0).isLt (p 0).isLt (p 1).isLt (hlab _)

/-- The accumulating scatter on the extended reals, read at one segment. -/
theorem scatterAdd_apply (x0 : S32.Idx → EReal) (idx : IVec S28311552x1 32) (upd : S28311552.Idx → EReal) (i : S32.Idx) :
    Host.scatterAdd (F := Ideal) (φ := .f32) scatter_S32_S28311552x1_S28311552_n_0_0_1 x0 idx upd i
      = x0 i + ∑ j : S28311552.Idx,
          if scatter_S32_S28311552x1_S28311552_n_0_0_1.resultIdx? j idx = some i then upd j else 0 := by
  show Ideal.hostScatterAdd scatter_S32_S28311552x1_S28311552_n_0_0_1 x0 idx upd i = _
  unfold Ideal.hostScatterAdd
  rw [Finset.sum_filter]

/-- The segmented sum of squares at one segment. -/
theorem v14_apply (x t : V5.Idx → EReal) (mk : V5.Idx → BitVec 32) (i : S32.Idx) :
    Read.val_main_v14 (F := Ideal) x t mk i
      = ∑ j : S28311552.Idx,
          if scatter_S32_S28311552x1_S28311552_n_0_0_1.resultIdx? j (Read.val_main_v13 (F := Ideal) mk) = some i
          then Read.val_main_v11 (F := Ideal) x t j else 0 := by
  unfold Read.val_main_v14
  rw [scatterAdd_apply, Read.val_main_v12_apply, Read.val_main_cst_apply, Ideal.ofBits_def, Ideal.ofBits_zero_f32,
    zero_add]

/-- Summing over flat positions is summing over voxels. -/
theorem seg_sum_eq (x t : V5.Idx → EReal) (mk : V5.Idx → BitVec 32) (hlab : ∀ v, (mk v).toNat < 8) (p : P47.Idx) :
    (∑ j : S28311552.Idx,
        if scatter_S32_S28311552x1_S28311552_n_0_0_1.resultIdx? j (Read.val_main_v13 (F := Ideal) mk)
            = some (Read.idx_main_v20 (Read.idx_main_v22 p))
        then Read.val_main_v11 (F := Ideal) x t j else 0) = segSum x t mk p := by
  unfold segSum
  refine Fintype.sum_equiv vox _ _ (fun j => ?_)
  by_cases h : Hit mk p (vox j)
  · rw [if_pos h, if_pos ((term_iff mk hlab p j).mpr h), upd_eq]
  · rw [if_neg h, if_neg (fun h' => h ((term_iff mk hlab p j).mp h'))]

theorem sums_eq (x t : V5.Idx → EReal) (mk : V5.Idx → BitVec 32) (hlab : ∀ v, (mk v).toNat < 8) :
    Cert.ReferenceIdeal.Read.val_main_v22 (F := Ideal) x t mk = segSum x t mk := by
  funext p
  rw [Read.val_main_v22_apply, Read.val_main_v20_apply, v14_apply]
  exact seg_sum_eq x t mk hlab p

/-- The segmented count at one segment. -/
theorem v19_apply (mk : V5.Idx → BitVec 32) (i : S32.Idx) :
    Read.val_main_v19 (F := Ideal) mk i
      = ∑ j : S28311552.Idx,
          if scatter_S32_S28311552x1_S28311552_n_0_0_1.resultIdx? j (Read.val_main_v18 (F := Ideal) mk) = some i
          then Read.val_main_v16 (F := Ideal) j else 0 := by
  unfold Read.val_main_v19
  rw [scatterAdd_apply, Read.val_main_v17_apply, Read.val_main_cst_1_apply, Ideal.ofBits_def, Ideal.ofBits_zero_f32,
    zero_add]

/-- The count's update is one at every flat position. -/
theorem one_eq (j : S28311552.Idx) : Read.val_main_v16 (F := Ideal) j = 1 := by
  rw [Read.val_main_v16_apply, Read.val_main_v15_apply, Read.val_main_cst_0_apply, Ideal.ofBits_def,
    Ideal.ofBits_one_f32]

/-- The count's scatter reads the same index column and the same table entry as the sum's. -/
theorem term_iff' (mk : V5.Idx → BitVec 32) (hlab : ∀ v, (mk v).toNat < 8) (p : P47.Idx) (j : S28311552.Idx) :
    scatter_S32_S28311552x1_S28311552_n_0_0_1.resultIdx? j (Read.val_main_v18 (F := Ideal) mk)
        = some (Read.idx_main_v21 (Read.idx_main_v23 p)) ↔ Hit mk p (vox j) :=
  term_iff mk hlab p j

/-- Counting over flat positions is counting over voxels. -/
theorem seg_cnt_eq (mk : V5.Idx → BitVec 32) (hlab : ∀ v, (mk v).toNat < 8) (p : P47.Idx) :
    (∑ j : S28311552.Idx,
        if scatter_S32_S28311552x1_S28311552_n_0_0_1.resultIdx? j (Read.val_main_v18 (F := Ideal) mk)
            = some (Read.idx_main_v21 (Read.idx_main_v23 p))
        then Read.val_main_v16 (F := Ideal) j else 0) = segCnt mk p := by
  unfold segCnt
  refine Fintype.sum_equiv vox _ _ (fun j => ?_)
  by_cases h : Hit mk p (vox j)
  · rw [if_pos h, if_pos ((term_iff' mk hlab p j).mpr h), one_eq]
  · rw [if_neg h, if_neg (fun h' => h ((term_iff' mk hlab p j).mp h'))]

theorem cnts_eq (mk : V5.Idx → BitVec 32) (hlab : ∀ v, (mk v).toNat < 8) :
    Cert.ReferenceIdeal.Read.val_main_v23 (F := Ideal) mk = segCnt mk := by
  funext p
  rw [Read.val_main_v23_apply, Read.val_main_v21_apply, v19_apply]
  exact seg_cnt_eq mk hlab p

/-- The reference's result is the masked loss. -/
theorem loss_eq (x t : V5.Idx → EReal) (mk : V5.Idx → BitVec 32) (hlab : ∀ v, (mk v).toNat < 8) :
    Cert.ReferenceIdeal.Read.val_main_v26 (F := Ideal) x t mk = loss x t mk := by
  unfold Read.val_main_v26 Read.val_main_v25 Read.val_main_v24
  rw [sums_eq x t mk hlab, cnts_eq mk hlab]
  rfl

end Cert.MaskedMean.Ref

end
-- ==== Proof.lean ====
/-
  The masked mean-squared-error loss: for each batch entry and each foreground label 1 … 7 the mean of the
  squared differences over the voxels carrying that label, summed over labels and entries and divided by the
  number of entries, 4.

  The kernel reshapes the arguments to 4 × 55296 × 128, lets each of two cores walk eight row blocks and
  accumulate, per batch entry and label, the block's sum of squared differences times the 0/1 label test and the
  sum of the tests; the host adds the two cores, divides sums by counts where the count is positive, sums the
  4 × 7 table and divides by 4.  The reference forms the segment id 8·(batch entry) + label of every voxel,
  scatter-adds the squared differences and ones into 32 segments, drops label 0, divides, sums and divides by 4.

  Under the precondition — labels in [0, 8), every foreground label present in every batch entry — both are
  `Cert.MaskedMean.loss` of the arguments on the extended reals: the kernel's product with the label test is
  the term where the test holds and zero elsewhere, its blocks tile the voxels, a reshape keeps the batch entry;
  the reference's segment id names one (entry, label) pair; every count is a positive real, so the kernel's
  guard on the count never fires.  Sums on the extended reals commute and associate, so no finiteness is used.
-/
import proofs.«420671_j68152541053394_4_alg».proof.Defs
import proofs.«420671_j68152541053394_4_alg».proof.Proof.Gen.Kernel
import proofs.«420671_j68152541053394_4_alg».proof.Proof.Gen.Kernel.Skeleton
import proofs.«420671_j68152541053394_4_alg».proof.Proof.Gen.Kernel.Launch
import proofs.«420671_j68152541053394_4_alg».proof.Proof.Gen.Kernel.Points
import proofs.«420671_j68152541053394_4_alg».proof.Proof.Gen.Kernel.Frame
import proofs.«420671_j68152541053394_4_alg».proof.Proof.Gen.KernelIdeal
import proofs.«420671_j68152541053394_4_alg».proof.Proof.Gen.KernelIdeal.Skeleton
import proofs.«420671_j68152541053394_4_alg».proof.Proof.Gen.KernelIdeal.Launch
import proofs.«420671_j68152541053394_4_alg».proof.Proof.Gen.KernelIdeal.Points
import proofs.«420671_j68152541053394_4_alg».proof.Proof.Gen.KernelIdeal.Frame
import proofs.«420671_j68152541053394_4_alg».proof.Proof.Gen.ReferenceIdeal
import proofs.«420671_j68152541053394_4_alg».proof.Proof.Gen.Pre_finite_inputs
import proofs.«420671_j68152541053394_4_alg».proof.Proof.Gen.ReferenceIdeal.Run
import proofs.«420671_j68152541053394_4_alg».proof.Proof.Gen.ReferenceIdeal.Read
import proofs.«420671_j68152541053394_4_alg».proof.Proof.KerTail
import proofs.«420671_j68152541053394_4_alg».proof.Proof.Reindex
import proofs.«420671_j68152541053394_4_alg».proof.Proof.PreDecode
import proofs.«420671_j68152541053394_4_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the masked loss of the arguments. -/
theorem algebraic : Cert.algebraic_KernelIdeal_ReferenceIdeal := by
  intro m ρ m' ρ' hpre hagree
  have hlab := fun c : Dev Cert.KernelIdeal.nD => Cert.MaskedMean.labels_of_pre _ _ _ (hpre c)
  refine ⟨fun c => Cert.MaskedMean.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.MaskedMean.Tail.kernel_run m ρ)
    rw [Cert.MaskedMean.laneTable_coreSums, Cert.MaskedMean.laneTable_coreCnts]
    exact Cert.MaskedMean.guarded_eq _ _ _ (hlab c).2
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v26_eq, (hagree c).1, (hagree c).2.1, (hagree c).2.2]
    exact Cert.MaskedMean.Ref.loss_eq _ _ _ (hlab c).1

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
